-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S200000x512 : Shape := ⟨2, ![200000, 512]⟩
abbrev S4x50000 : Shape := ⟨2, ![4, 50000]⟩
abbrev S4x512x512 : Shape := ⟨3, ![4, 512, 512]⟩
abbrev S4x512 : Shape := ⟨2, ![4, 512]⟩
abbrev S4x512x256 : Shape := ⟨3, ![4, 512, 256]⟩
abbrev S4x256 : Shape := ⟨2, ![4, 256]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S4x512x256 : S_.BroadcastsInDim S4x512x256 (![] : Fin 0 → Fin S4x512x256.rank)
  reducesTo_S4x512x256_S_d0_1_2 : S4x512x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_arg6 : FVec F S4x512 .f32) (main_arg7 : FVec F S4x512x256 .f32) (main_arg8 : FVec F S4x256 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg6
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512x256 .f32 := Host.absf main_arg7
  let main_cst_8 : FVec F S_ .f32 := constant S_ .f32 0x7F800000#32
  let main_v25 : FVec F S4x512x256 .f32 := broadcastInDim S4x512x256 ![] bcast_S_S4x512x256 main_cst_8
  let main_v26 : IVec S4x512x256 1 := cmpf .olt main_v24 main_v25
  let main_c_9 : IVec S_ 1 := constantI S_ 1 1#1
  let main_v27 : IVec S_ 1 := (fun x v => Host.reduce IntOp.andi x v reducesTo_S4x512x256_S_d0_1_2 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  main_v33

def fn {F : FTy → Type} [FloatOps F] (main_arg0 : IVec S200000 32) (main_arg1 : FVec F S200000x512 .f32) (main_arg2 : IVec S4x50000 32) (main_arg3 : FVec F S4x512x512 .f32) (main_arg4 : FVec F S4x512 .f32) (main_arg5 : FVec F S4x512x512 .f32) (main_arg6 : FVec F S4x512 .f32) (main_arg7 : FVec F S4x512x256 .f32) (main_arg8 : FVec F S4x256 .f32) : IVec S_ 1 :=
  let main_v0 : FVec F S200000x512 .f32 := Host.absf main_arg1
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S4x512x512 .f32 := Host.absf main_arg3
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512 .f32 := Host.absf main_arg4
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S4x512x512 .f32 := Host.absf main_arg5
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg6 main_arg7 main_arg8 main_v13 main_v16
-- ==== Kernel.lean ====
abbrev S200000 : Shape := ⟨1, ![200000]⟩
abbrev S200000x512 : Shape := ⟨2, ![200000, 512]⟩
abbrev S4x50000 : Shape := ⟨2, ![4, 50000]⟩
abbrev S4x512x512 : Shape := ⟨3, ![4, 512, 512]⟩
abbrev S4x512 : Shape := ⟨2, ![4, 512]⟩
abbrev S4x512x256 : Shape := ⟨3, ![4, 512, 256]⟩
abbrev S4x256 : Shape := ⟨2, ![4, 256]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S4x50000x512 : Shape := ⟨3, ![4, 50000, 512]⟩
abbrev S4x1x512 : Shape := ⟨3, ![4, 1, 512]⟩
abbrev S4x1x256 : Shape := ⟨3, ![4, 1, 256]⟩
abbrev S4x50000x256 : Shape := ⟨3, ![4, 50000, 256]⟩
abbrev S1x1000x512 : Shape := ⟨3, ![1, 1000, 512]⟩
abbrev S1x512x512 : Shape := ⟨3, ![1, 512, 512]⟩
abbrev S1x1x512 : Shape := ⟨3, ![1, 1, 512]⟩
abbrev S1x512x256 : Shape := ⟨3, ![1, 512, 256]⟩
abbrev S1x1x256 : Shape := ⟨3, ![1, 1, 256]⟩
abbrev S1x1000x256 : Shape := ⟨3, ![1, 1000, 256]⟩
abbrev S1000x512 : Shape := ⟨2, ![1000, 512]⟩
abbrev S512x512 : Shape := ⟨2, ![512, 512]⟩
abbrev S1x512 : Shape := ⟨2, ![1, 512]⟩
abbrev S512x256 : Shape := ⟨2, ![512, 256]⟩
abbrev S1000x256 : Shape := ⟨2, ![1000, 256]⟩
abbrev S1x256 : Shape := ⟨2, ![1, 256]⟩
abbrev S200000x256 : Shape := ⟨2, ![200000, 256]⟩

abbrev nBuf : Space → Nat
  | .hbm => 54
  | .vmem => 10
  | .smem => 0
  | _ => 0

abbrev bufTy : (tb : Table) → Fin (tcTables nBuf tb) → BufTy
  | .hbm, ⟨0, _⟩ => ⟨S200000, .i32⟩
  | .hbm, ⟨1, _⟩ => ⟨S200000x512, .f32⟩
  | .hbm, ⟨2, _⟩ => ⟨S4x50000, .i32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S4x512x256, .f32⟩
  | .hbm, ⟨8, _⟩ => ⟨S4x256, .f32⟩
  | .hbm, ⟨9, _⟩ => ⟨S200000, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S1, .i32⟩
  | .hbm, ⟨19, _⟩ => ⟨S_, .i32⟩
  | .hbm, ⟨20, _⟩ => ⟨S200000x1, .i32⟩
  | .hbm, ⟨21, _⟩ => ⟨S200000x1, .i1⟩
  | .hbm, ⟨22, _⟩ => ⟨S1x1, .i32⟩
  | .hbm, ⟨23, _⟩ => ⟨S200000x1, .i32⟩
  | .hbm, ⟨24, _⟩ => ⟨S200000x1, .i1⟩
  | .hbm, ⟨25, _⟩ => ⟨S200000x1, .i1⟩
  | .hbm, ⟨26, _⟩ => ⟨S_, .i1⟩
  | .hbm, ⟨27, _⟩ => ⟨S200000, .i1⟩
  | .hbm, ⟨28, _⟩ => ⟨S200000x512, .f32⟩
  | .hbm, ⟨29, _⟩ => ⟨S200000x512, .i1⟩
  | .hbm, ⟨30, _⟩ => ⟨S_, .f32⟩
  | .hbm, ⟨31, _⟩ => ⟨S200000x512, .f32⟩
  | .hbm, ⟨32, _⟩ => ⟨S200000x512, .f32⟩
  | .hbm, ⟨33, _⟩ => ⟨S4x50000x512, .f32⟩
  | .hbm, ⟨34, _⟩ => ⟨S4x50000x512, .bf16⟩
  | .hbm, ⟨35, _⟩ => ⟨S4x512x512, .bf16⟩
  | .hbm, ⟨36, _⟩ => ⟨S4x512x512, .bf16⟩
  | .hbm, ⟨37, _⟩ => ⟨S4x512x256, .bf16⟩
  | .hbm, ⟨38, _⟩ => ⟨S4x1x512, .f32⟩
  | .hbm, ⟨39, _⟩ => ⟨S4x1x512, .f32⟩
  | .hbm, ⟨40, _⟩ => ⟨S4x1x256, .f32⟩
  | .hbm, ⟨41, _⟩ => ⟨S4x50000x256, .f32⟩
  | .hbm, ⟨42, _⟩ => ⟨S_, .f32⟩
  | .hbm, ⟨43, _⟩ => ⟨S200000x256, .f32⟩
  | .hbm, ⟨44, _⟩ => ⟨S200000x256, .f32⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S200000x256, .f32⟩
  | .local _ .vmem, ⟨0, _⟩ => ⟨S1x1000x512, .bf16⟩
  | .local _ .vmem, ⟨1, _⟩ => ⟨S1x1000x512, .bf16⟩
  | .local _ .vmem, ⟨2, _⟩ => ⟨S1x512x512, .bf16⟩
  | .local _ .vmem, ⟨3, _⟩ => ⟨S1x1x512, .f32⟩
  | .local _ .vmem, ⟨4, _⟩ => ⟨S1x512x512, .bf16⟩
  | .local _ .vmem, ⟨5, _⟩ => ⟨S1x1x512, .f32⟩
  | .local _ .vmem, ⟨6, _⟩ => ⟨S1x512x256, .bf16⟩
  | .local _ .vmem, ⟨7, _⟩ => ⟨S1x1x256, .f32⟩
  | .local _ .vmem, ⟨8, _⟩ => ⟨S1x1000x256, .f32⟩
  | .local _ .vmem, ⟨9, _⟩ => ⟨S1x1000x256, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_c : Ref sig .tc := ⟨.hbm, 45, rfl⟩
abbrev main_v13 : Ref sig .tc := ⟨.hbm, 46, rfl⟩
abbrev main_v14 : Ref sig .tc := ⟨.hbm, 47, rfl⟩
abbrev main_c_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x50000_S200000 : S4x50000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x512_0 : S200000.BroadcastsInDim S200000x512 (![0] : Fin 1 → Fin S200000x512.rank)
  bcast_S_S200000x512 : S_.BroadcastsInDim S200000x512 (![] : Fin 0 → Fin S200000x512.rank)
  shapeCasts_S200000x512_S4x50000x512 : S200000x512.ShapeCasts S4x50000x512
  bitsLt_bf16_f32 : FTy.bits .bf16 < FTy.bits .f32
  shapeCasts_S4x512_S4x1x512 : S4x512.ShapeCasts S4x1x512
  shapeCasts_S4x256_S4x1x256 : S4x256.ShapeCasts S4x1x256
  inb_S1x1000x512_S1x1000x512_0_0_0 : ∀ a, (![0, 0, 0] : Fin 3 → Nat) a + S1x1000x512.size a ≤ S1x1000x512.size a
  h_S1x1000x512 : 0 < S1x1000x512.numel
  shapeCasts_S1x1000x512_S1000x512 : S1x1000x512.ShapeCasts S1000x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x512 : S1x512.ShapeCasts S1x512
  broadcasts_S1x512_S1000x512 : S1x512.Broadcasts S1000x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x256 : S1x256.ShapeCasts S1x256
  broadcasts_S1x256_S1000x256 : S1x256.Broadcasts S1000x256
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  bcast_S_S200000x256 : S_.BroadcastsInDim S200000x256 (![] : Fin 0 → Fin S200000x256.rank)
  shapeCasts_S4x50000x256_S200000x256 : S4x50000x256.ShapeCasts S200000x256
  gather_S200000x512_S200000x1_S200000x512_1_0_n_n_0_1_1512_wf : GatherDims.WF S200000x512 S200000x1 S200000x512 [1] [0] [] [0] [] 1 ![1, 512]
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  scatter_S200000x256_S200000x1_S200000x256_1_0_0_1_wf : ScatterDims.WF S200000x256 S200000x1 S200000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x512.size a ≤ S4x50000x512.size a
  hwx0_0 : ∀ i : grid0.Coords, EltTy.bits .bf16 = 32 ∨ (Rect.block (s := S4x50000x512) S1x1000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x512x512.size a
  hwx0_1 : ∀ i : grid0.Coords, EltTy.bits .bf16 = 32 ∨ (Rect.block (s := S4x512x512) S1x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x512.size a
  hwx0_2 : ∀ i : grid0.Coords, EltTy.bits .f32 = 32 ∨ (Rect.block (s := S4x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x512x512.size a
  hwx0_3 : ∀ i : grid0.Coords, EltTy.bits .bf16 = 32 ∨ (Rect.block (s := S4x512x512) S1x512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S4x1x512.size a
  hwx0_4 : ∀ i : grid0.Coords, EltTy.bits .f32 = 32 ∨ (Rect.block (s := S4x1x512) S1x1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512x256.size a ≤ S4x512x256.size a
  hwx0_5 : ∀ i : grid0.Coords, EltTy.bits .bf16 = 32 ∨ (Rect.block (s := S4x512x256) S1x512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S4x1x256.size a
  hwx0_6 : ∀ i : grid0.Coords, EltTy.bits .f32 = 32 ∨ (Rect.block (s := S4x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1000x256.size a ≤ S4x50000x256.size a
  hwx0_7 : ∀ i : grid0.Coords, EltTy.bits .f32 = 32 ∨ (Rect.block (s := S4x50000x256) S1x1000x256.size (cc0_transform_7 i) (hinb0_7 i)).WholeWords (EltTy.packing .f32)

variable [Facts₀]

def gather_S200000x512_S200000x1_S200000x512_1_0_n_n_0_1_1512 : GatherDims S200000x512 S200000x1 S200000x512 where
  offsetDims := [1]
  collapsedSliceDims := [0]
  operandBatchingDims := []
  startIndicesBatchingDims := []
  startIndexMap := [0]
  indexVectorDim := 1
  sliceSizes := ![1, 512]
  wf := gather_S200000x512_S200000x1_S200000x512_1_0_n_n_0_1_1512_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def scatter_S200000x256_S200000x1_S200000x256_1_0_0_1 : ScatterDims S200000x256 S200000x1 S200000x256 where
  updateWindowDims := [1]
  insertedWindowDims := [0]
  scatterDimsToOperandDims := [0]
  indexVectorDim := 1
  wf := scatter_S200000x256_S200000x1_S200000x256_1_0_0_1_wf

abbrev win0_0 : Pipeline.Window sig grid0 :=
  Pipeline.Window.ofSpec (Memref.whole main_v3) S1x1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000 : Shape := ⟨1, ![200000]⟩
abbrev S200000x512 : Shape := ⟨2, ![200000, 512]⟩
abbrev S4x50000 : Shape := ⟨2, ![4, 50000]⟩
abbrev S4x512x512 : Shape := ⟨3, ![4, 512, 512]⟩
abbrev S4x512 : Shape := ⟨2, ![4, 512]⟩
abbrev S4x512x256 : Shape := ⟨3, ![4, 512, 256]⟩
abbrev S4x256 : Shape := ⟨2, ![4, 256]⟩
abbrev S_ : Shape := ⟨0, ![]⟩
abbrev S4x50000x1 : Shape := ⟨3, ![4, 50000, 1]⟩
abbrev S4x50000x512 : Shape := ⟨3, ![4, 50000, 512]⟩
abbrev S4x1x512 : Shape := ⟨3, ![4, 1, 512]⟩
abbrev S4x50000x256 : Shape := ⟨3, ![4, 50000, 256]⟩
abbrev S4x1x256 : Shape := ⟨3, ![4, 1, 256]⟩
abbrev S200000x256 : Shape := ⟨2, ![200000, 256]⟩
abbrev S200000x1 : Shape := ⟨2, ![200000, 1]⟩

abbrev nBuf : Space → Nat
  | .hbm => 61
  | .vmem => 0
  | .smem => 0
  | _ => 0

abbrev bufTy : (tb : Table) → Fin (tcTables nBuf tb) → BufTy
  | .hbm, ⟨0, _⟩ => ⟨S200000, .i32⟩
  | .hbm, ⟨1, _⟩ => ⟨S200000x512, .f32⟩
  | .hbm, ⟨2, _⟩ => ⟨S4x50000, .i32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S4x512x256, .f32⟩
  | .hbm, ⟨8, _⟩ => ⟨S4x256, .f32⟩
  | .hbm, ⟨9, _⟩ => ⟨S_, .i32⟩
  | .hbm, ⟨10, _⟩ => ⟨S4x50000, .i32⟩
  | .hbm, ⟨11, _⟩ => ⟨S4x50000, .i1⟩
  | .hbm, ⟨12, _⟩ => ⟨S_, .i32⟩
  | .hbm, ⟨13, _⟩ => ⟨S4x50000, .i32⟩
  | .hbm, ⟨14, _⟩ => ⟨S4x50000, .i32⟩
  | .hbm, ⟨15, _⟩ => ⟨S4x50000, .i32⟩
  | .hbm, ⟨16, _⟩ => ⟨S4x50000x1, .i32⟩
  | .hbm, ⟨17, _⟩ => ⟨S4x50000x512, .f32⟩
  | .hbm, ⟨18, _⟩ => ⟨S4x50000x512, .f32⟩
  | .hbm, ⟨19, _⟩ => ⟨S4x1x512, .f32⟩
  | .hbm, ⟨20, _⟩ => ⟨S4x50000x512, .f32⟩
  | .hbm, ⟨21, _⟩ => ⟨S4x50000x512, .f32⟩
  | .hbm, ⟨22, _⟩ => ⟨S4x50000x512, .f32⟩
  | .hbm, ⟨23, _⟩ => ⟨S4x50000x512, .f32⟩
  | .hbm, ⟨24, _⟩ => ⟨S_, .f32⟩
  | .hbm, ⟨25, _⟩ => ⟨S4x50000x512, .f32⟩
  | .hbm, ⟨26, _⟩ => ⟨S4x50000x512, .f32⟩
  | .hbm, ⟨27, _⟩ => ⟨S_, .f32⟩
  | .hbm, ⟨28, _⟩ => ⟨S4x50000x512, .f32⟩
  | .hbm, ⟨29, _⟩ => ⟨S4x50000x512, .f32⟩
  | .hbm, ⟨30, _⟩ => ⟨S4x50000x512, .f32⟩
  | .hbm, ⟨31, _⟩ => ⟨S4x50000x512, .f32⟩
  | .hbm, ⟨32, _⟩ => ⟨S4x1x512, .f32⟩
  | .hbm, ⟨33, _⟩ => ⟨S4x50000x512, .f32⟩
  | .hbm, ⟨34, _⟩ => ⟨S4x50000x512, .f32⟩
  | .hbm, ⟨35, _⟩ => ⟨S4x50000x512, .f32⟩
  | .hbm, ⟨36, _⟩ => ⟨S4x50000x512, .f32⟩
  | .hbm, ⟨37, _⟩ => ⟨S_, .f32⟩
  | .hbm, ⟨38, _⟩ => ⟨S4x50000x512, .f32⟩
  | .hbm, ⟨39, _⟩ => ⟨S4x50000x512, .f32⟩
  | .hbm, ⟨40, _⟩ => ⟨S_, .f32⟩
  | .hbm, ⟨41, _⟩ => ⟨S4x50000x512, .f32⟩
  | .hbm, ⟨42, _⟩ => ⟨S4x50000x512, .f32⟩
  | .hbm, ⟨43, _⟩ => ⟨S4x50000x512, .f32⟩
  | .hbm, ⟨44, _⟩ => ⟨S4x50000x256, .f32⟩
  | .hbm, ⟨45, _⟩ => ⟨S4x1x256, .f32⟩
  | .hbm, ⟨46, _⟩ => ⟨S4x50000x256, .f32⟩
  | .hbm, ⟨47, _⟩ => ⟨S4x50000x256, .f32⟩
  | .hbm, ⟨48, _⟩ => ⟨S_, .f32⟩
  | .hbm, ⟨49, _⟩ => ⟨S200000x256, .f32⟩
  | .hbm, ⟨50, _⟩ => ⟨S200000, .i32⟩
  | .hbm, ⟨51, _⟩ => ⟨S200000x256, .f32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S200000x1, .i32⟩
  | .hbm, ⟨60, _⟩ => ⟨S200000x256, .f32⟩
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_1 : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩

abbrev nD : Nat := 1
abbrev τ : Topo := Topo.v7x

variable {F : FTy → Type} [FloatOps F]

class Facts₀ : Prop where
  bcast_S_S4x50000 : S_.BroadcastsInDim S4x50000 (![] : Fin 0 → Fin S4x50000.rank)
  bcast_S4x50000_S4x50000x1_0_1 : S4x50000.BroadcastsInDim S4x50000x1 (![0, 1] : Fin 2 → Fin S4x50000x1.rank)
  bcast_S4x512_S4x1x512_0_2 : S4x512.BroadcastsInDim S4x1x512 (![0, 2] : Fin 2 → Fin S4x1x512.rank)
  bcast_S4x1x512_S4x50000x512_0_1_2 : S4x1x512.BroadcastsInDim S4x50000x512 (![0, 1, 2] : Fin 3 → Fin S4x50000x512.rank)
  bcast_S_S4x50000x512 : S_.BroadcastsInDim S4x50000x512 (![] : Fin 0 → Fin S4x50000x512.rank)
  bcast_S4x256_S4x1x256_0_2 : S4x256.BroadcastsInDim S4x1x256 (![0, 2] : Fin 2 → Fin S4x1x256.rank)
  bcast_S4x1x256_S4x50000x256_0_1_2 : S4x1x256.BroadcastsInDim S4x50000x256 (![0, 1, 2] : Fin 3 → Fin S4x50000x256.rank)
  bcast_S_S200000x256 : S_.BroadcastsInDim S200000x256 (![] : Fin 0 → Fin S200000x256.rank)
  shapeCasts_S4x50000_S200000 : S4x50000.ShapeCasts S200000
  shapeCasts_S4x50000x256_S200000x256 : S4x50000x256.ShapeCasts S200000x256
  bcast_S_S200000 : S_.BroadcastsInDim S200000 (![] : Fin 0 → Fin S200000.rank)
  bcast_S200000_S200000x1_0 : S200000.BroadcastsInDim S200000x1 (![0] : Fin 1 → Fin S200000x1.rank)
  gather_S200000x512_S4x50000x1_S4x50000x512_2_0_n_n_0_2_1512_wf : GatherDims.WF S200000x512 S4x50000x1 S4x50000x512 [2] [0] [] [0] [] 2 ![1, 512]
  dot_S4x50000x512_S4x512x512_S4x50000x512_2_1_1_2_0_0_wf : DotDims.WF S4x50000x512 S4x512x512 S4x50000x512 [2] [1] [1] [2] [0] [0]
  dot_S4x50000x512_S4x512x256_S4x50000x256_2_1_1_2_0_0_wf : DotDims.WF S4x50000x512 S4x512x256 S4x50000x256 [2] [1] [1] [2] [0] [0]
  scatter_S200000x256_S200000x1_S200000x256_1_0_0_1_wf : ScatterDims.WF S200000x256 S200000x1 S200000x256 [1] [0] [0] 1

variable [Facts₀]

def gather_S200000x512_S4x50000x1_S4x50000x512_2_0_n_n_0_2_1512 : GatherDims S200000x512 S4x50000x1 S4x50000x512 where
  offsetDims := [2]
  collapsedSliceDims := [0]
  operandBatchingDims := []
  startIndicesBatchingDims := []
  startIndexMap := [0]
  indexVectorDim := 2
  sliceSizes := ![1, 512]
  wf := gather_S200000x512_S4x50000x1_S4x50000x512_2_0_n_n_0_2_1512_wf
def dot_S4x50000x512_S4x512x512_S4x50000x512_2_1_1_2_0_0 : DotDims S4x50000x512 S4x512x512 S4x50000x512 where
  lhsContracting := [2]
  rhsContracting := [1]
  lhsNonContracting := [1]
  rhsNonContracting := [2]
  lhsBatch := [0]
  rhsBatch := [0]
  wf := dot_S4x50000x512_S4x512x512_S4x50000x512_2_1_1_2_0_0_wf
def dot_S4x50000x512_S4x512x256_S4x50000x256_2_1_1_2_0_0 : DotDims S4x50000x512 S4x512x256 S4x50000x256 where
  lhsContracting := [2]
  rhsContracting := [1]
  lhsNonContracting := [1]
  rhsNonContracting := [2]
  lhsBatch := [0]
  rhsBatch := [0]
  wf := dot_S4x50000x512_S4x512x256_S4x50000x256_2_1_1_2_0_0_wf
def scatter_S200000x256_S200000x1_S200000x256_1_0_0_1 : ScatterDims S200000x256 S200000x1 S200000x256 where
  updateWindowDims := [1]
  insertedWindowDims := [0]
  scatterDimsToOperandDims := [0]
  indexVectorDim := 1
  wf := scatter_S200000x256_S200000x1_S200000x256_1_0_0_1_wf

class Facts : Prop extends Facts₀ where

variable [Facts]
-- ==== Proof.Wrap.lean ====
/-
  The index column both scatters and the kernel's row gather use: the flat indices, each negative one moved up by
  200000 (a negative index counts rows from the end), laid out as a [200000, 1] column.
-/
import proofs.«430737_j85435489452600_2_alg».proof.Proof.Gen.KernelIdeal

noncomputable section

namespace Cert.KernelIdeal.Wrap

open Idealize.ShloMosaic Cert.KernelIdeal

/-- Flat indices `v`, each negative one replaced by itself plus 200000, as a column. -/
def widx (v : IVec S200000 32) : IVec S200000x1 32 :=
  broadcastInDim S200000x1 ![0] Facts₀.bcast_S200000_S200000x1_0
    (select (cmpi .slt v (broadcastInDim S200000 ![] Facts₀.bcast_S_S200000 (constantI S_ 32 0#32)))
      (addi v (broadcastInDim S200000 ![] Facts₀.bcast_S_S200000 (constantI S_ 32 200000#32))) v)

end Cert.KernelIdeal.Wrap

end
-- ==== Proof.RunValue.lean ====
/-
  The kernel program's run with its result named. The program ends with host operations after its one grid
  region: a zero array [200000, 256], the region's output [4, 50000, 256] read as [200000, 256], the flat indices
  with each negative one moved up by 200000 and laid out as a column, and the scatter of the output's rows into the
  zero array at those indices. Read back one operation at a time, the scatter's result is that scatter applied to the
  region's output array as the run leaves it and to the flat indices as the region found them; the nine argument
  arrays end as launched.
-/
import proofs.«430737_j85435489452600_2_alg».proof.Proof.Gen.KernelIdeal.Frame
import proofs.«430737_j85435489452600_2_alg».proof.Proof.Wrap
import Idealize.ShloMosaic.Lib.StableHlo.Run
import Idealize.ShloMosaic.Lib.Pipeline.Value
import Idealize.ShloMosaic.PureOps.Ideal

noncomputable section

namespace Cert.KernelIdeal.RunValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The flat indices are no array of the region: after it they are what the region found. -/
theorem tail_v0 (c : Dev nD) :
    Pipeline.withArrays (cfgs 0).spec c (Gen.V0 m c) (fun w => (Gen.dats m 0 c).arrAt w (cfgs 0).N) (Proc.devRef .tc main_v0)
      = Gen.V m c main_v0 :=
  Pipeline.withArrays_of_ne _ c (Gen.V0 m c) _ main_v0 (by exact (by decide : ∀ w, Pipeline.arrRef spec0 w ≠ main_v0))

/-- The region's output is its eighth array: after the region it holds what the run's write-backs left. -/
theorem tail_v10 (c : Dev nD) :
    Pipeline.withArrays (cfgs 0).spec c (Gen.V0 m c) (fun w => (Gen.dats m 0 c).arrAt w (cfgs 0).N) (Proc.devRef .tc main_v10)
      = (Gen.dats m 0 c).arrAt 7 (cfgs 0).N :=
  Pipeline.withArrays_arr spec0 launch0.win.arr_inj c _ _ 7

/-- The operations after the region, read back from ANY contents `W` of the buffers at the region's exit: the
    result buffer ends at the scatter, into zeros, of `W`'s region output read as [200000, 256], at `W`'s flat
    indices wrapped and laid out as a column. -/
theorem after_tail (W : Valuation τ sig (Elt Ideal)) :
    StableHlo.after (Gen.hostOps1 (F := Ideal)) W (Proc.devRef .tc main_v19)
      = Host.scatter scatter_S200000x256_S200000x1_S200000x256_1_0_0_1 (fun _ b => b)
          (broadcastInDim S200000x256 ![] Facts₀.bcast_S_S200000x256 (constant (F := Ideal) S_ .f32 0x00000000#32))
          (Wrap.widx (W (Proc.devRef .tc main_v0)))
          (shapeCast S200000x256 (W (Proc.devRef .tc main_v10) : Vec Ideal S4x50000x256 .f32) Facts₀.shapeCasts_S4x50000x256_S200000x256) := by
  after_results
  rfl

/-- What the operations after the region leave in the result buffer: the scatter of the region's output, read as
    [200000, 256], into zeros at the wrapped flat indices. -/
theorem tail_v19 (c : Dev nD) :
    Pipeline.afterTail₀ cfgs (Gen.dats m) 0 (Gen.V0 m) [Gen.hostOps1] c main_v19
      = Host.scatter scatter_S200000x256_S200000x1_S200000x256_1_0_0_1 (fun _ b => b)
          (broadcastInDim S200000x256 ![] Facts₀.bcast_S_S200000x256 (constant (F := Ideal) S_ .f32 0x00000000#32))
          (Wrap.widx (Gen.V m c main_v0))
          (shapeCast S200000x256 ((Gen.dats m 0 c).arrAt 7 cfg0.N : Vec Ideal S4x50000x256 .f32) Facts₀.shapeCasts_S4x50000x256_S200000x256) := by
  unfold Pipeline.afterTail₀
  refine (after_tail _).trans ?_
  rw [tail_v0 m c, tail_v10 m c]

/-- THE RUN WITH ITS RESULT NAMED: every weakly fair execution of the program on the TensorCores terminates; the
    result buffer ends at the scatter above and every argument array as launched. -/
theorem run_value : θ_run (defs (F := Ideal)) (onTc (τ := τ) (main (F := Ideal))) ⟨m, fun _ => 0, ρ⟩ (fun r => ∀ c : Dev nD,
      r.2.mem ((c.tc : Thread nD τ).loc main_v19) = Host.scatter scatter_S200000x256_S200000x1_S200000x256_1_0_0_1 (fun _ b => b)
            (broadcastInDim S200000x256 ![] Facts₀.bcast_S_S200000x256 (constant (F := Ideal) S_ .f32 0x00000000#32))
            (Wrap.widx (Gen.V m c main_v0))
            (shapeCast S200000x256 ((Gen.dats m 0 c).arrAt 7 cfg0.N : Vec Ideal S4x50000x256 .f32) Facts₀.shapeCasts_S4x50000x256_S200000x256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v19 (Pipeline.mem_restRefs_of main_v19 (by decide) (by decide))).trans (tail_v19 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c)⟩)
    (Gen.run_main m ρ)

end Cert.KernelIdeal.RunValue

end
-- ==== Proof.Spec.lean ====
/-
  The function both programs compute on one gathered row, over the extended reals.

  One atom's feature row `x : Fin 512 → EReal` of species `s` goes through three affine layers with the
  species' weights, the first two followed by silu:
      h¹ = silu (x · W¹ + b¹),   h² = silu (h¹ · W² + b²),   o = h² · W³ + b³,
  where `(x · W) h = ∑ k, x k * W k h` and `silu z = z * logistic z`, `logistic z = 1 / (1 + e^(-z))`.
  Nothing here mentions a program: the kernel's block payload and the reference's einsum chain are each shown
  equal to `row` of their own operands, and the rows themselves are compared where the scatter keeps them.
-/
import Idealize.ShloMosaic.PureOps.Ideal
import Idealize.ShloMosaic.Lib.ValueIdx

noncomputable section

open scoped BigOperators

namespace Cert.Mlp

open Idealize.ShloMosaic Idealize.ShloMosaic.ValueIdx

/-- One affine layer on a row: `h ↦ (∑ k, x k * W k h) + b h`. -/
def affine {K N : Nat} (W : Fin K → Fin N → EReal) (b : Fin N → EReal) (x : Fin K → EReal) (h : Fin N) : EReal :=
  (∑ k : Fin K, x k * W k h) + b h

/-- `silu z = z · σ(z)` with `σ` the logistic function on the extended reals. -/
def silu (z : EReal) : EReal := z * Ideal.logistic z

/-- The three-layer perceptron on one row (silu, silu, linear). -/
def row (W1 : Fin 512 → Fin 512 → EReal) (b1 : Fin 512 → EReal) (W2 : Fin 512 → Fin 512 → EReal) (b2 : Fin 512 → EReal)
    (W3 : Fin 512 → Fin 256 → EReal) (b3 : Fin 256 → EReal) (x : Fin 512 → EReal) : Fin 256 → EReal :=
  affine W3 b3 fun k2 => silu (affine W2 b2 (fun k1 => silu (affine W1 b1 x k1)) k2)

/-- The grouped perceptron over the whole arrays: entry `(s, g, o)` is `row` of species `s`'s weights at the feature
    row `X (s, g, ·)`. It reads `X` only along that one row. -/
def grouped (X : (⟨3, ![4, 50000, 512]⟩ : Shape).Idx → EReal)
    (W1 : (⟨3, ![4, 512, 512]⟩ : Shape).Idx → EReal) (b1 : (⟨2, ![4, 512]⟩ : Shape).Idx → EReal)
    (W2 : (⟨3, ![4, 512, 512]⟩ : Shape).Idx → EReal) (b2 : (⟨2, ![4, 512]⟩ : Shape).Idx → EReal)
    (W3 : (⟨3, ![4, 512, 256]⟩ : Shape).Idx → EReal) (b3 : (⟨2, ![4, 256]⟩ : Shape).Idx → EReal) :
    (⟨3, ![4, 50000, 256]⟩ : Shape).Idx → EReal :=
  fun i => row (fun k h => W1 (ix3 (i 0) k h)) (fun h => b1 (ix2 (i 0) h)) (fun k h => W2 (ix3 (i 0) k h))
    (fun h => b2 (ix2 (i 0) h)) (fun k h => W3 (ix3 (i 0) k h)) (fun h => b3 (ix2 (i 0) h))
    (fun k => X (ix3 (i 0) (i 1) k)) (i 2)

/-- Two feature arrays that agree along row `(s, g)` give the same output row there. -/
theorem grouped_congr_row (X X' : (⟨3, ![4, 50000, 512]⟩ : Shape).Idx → EReal)
    (W1 : (⟨3, ![4, 512, 512]⟩ : Shape).Idx → EReal) (b1 : (⟨2, ![4, 512]⟩ : Shape).Idx → EReal)
    (W2 : (⟨3, ![4, 512, 512]⟩ : Shape).Idx → EReal) (b2 : (⟨2, ![4, 512]⟩ : Shape).Idx → EReal)
    (W3 : (⟨3, ![4, 512, 256]⟩ : Shape).Idx → EReal) (b3 : (⟨2, ![4, 256]⟩ : Shape).Idx → EReal)
    (i : (⟨3, ![4, 50000, 256]⟩ : Shape).Idx) (h : ∀ k : Fin 512, X (ix3 (i 0) (i 1) k) = X' (ix3 (i 0) (i 1) k)) :
    grouped X W1 b1 W2 b2 W3 b3 i = grouped X' W1 b1 W2 b2 W3 b3 i := by
  unfold grouped
  rw [show (fun k => X (ix3 (i 0) (i 1) k)) = fun k => X' (ix3 (i 0) (i 1) k) from funext h]

end Cert.Mlp

end
-- ==== Proof.LibRowGatherScatter.lean ====
/-
  Row gathers and a row scatter read at an index (general lemmas, no program imported).

  * `Host.scatter` is a left fold over the update elements in row-major order; an element whose result index is outside
    the operand is skipped. So two update arrays that agree on every element the fold does NOT skip scatter to the same
    array (`scatter_congr_kept`).
  * A row gather `x[i]` (operand [N, C]) reads row `min (max i 0) (N - 1)`: the start index read signed and clamped, for
    an index column [M, 1] (`rowGather2_apply`) and for an index array [R, G, 1] (`rowGather3_apply`).
  * For the row scatter `x.at[i].set(u)` (operand [N, C], indices [M, 1], updates [M, C]) an element of update row `p` is kept
    only if the row's index, read signed, lies in `[0, N)` (`rowScatter_kept`).
-/
import Idealize.ShloMosaic.PureOps.ShapeOps
import Idealize.ShloMosaic.Lib.ValueIdx

noncomputable section

namespace Cert.RowOps

open Idealize.ShloMosaic Idealize.ShloMosaic.ValueIdx

/-- Updates that agree wherever the scatter keeps the element give the same result. -/
theorem scatter_congr_kept {α : Type} {s si u : Shape} {w : Nat} (d : ScatterDims s si u) (f : α → α → α)
    (x : s.Idx → α) (idx : IVec si w) (upd upd' : u.Idx → α)
    (h : ∀ j i, d.resultIdx? j idx = some i → upd j = upd' j) :
    Host.scatter d f x idx upd = Host.scatter d f x idx upd' := by
  unfold Host.scatter
  congr 1
  funext r n
  rcases hres : d.resultIdx? (u.rowMajor.symm n) idx with _ | i
  · rfl
  · simp only [h _ _ hres]

section Gather
variable {α : Type}

/-- The dimension numbers of the row gather `x[i]` for an operand `[N, C]`, a column `[M, 1]` of start indices and the
    result `[M, C]`: result row `p` is the operand's row at start index `i[p, 0]`. -/
abbrev rowGather2Dims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather over an index column read at `(p, c)`: the operand at row `i[p, 0]`, read signed and clamped into
    `[0, N − 1]`, and column `c`. -/
theorem rowGather2_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather2Dims N M C wf) x idx y
      = x (ix2 ⟨min (idx (ix2 (y 0) 0)).toInt.toNat (N - 1), by omega⟩ (y 1)) := by
  unfold Host.gather
  congr 1
  funext a
  refine Fin.ext ?_
  match a with
  | ⟨0, _⟩ =>
    show (rowGather2Dims N M C wf).start y idx 0 + (rowGather2Dims N M C wf).batchCoord y 0
      + (rowGather2Dims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2Dims N M C wf).startIndexMap from List.mem_singleton.mpr rfl)]
    have hsi : (rowGather2Dims N M C wf).siIdx y ⟨List.idxOf (0 : Fin 2) (rowGather2Dims N M C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGather2Dims N M C wf).start y idx 1 + (rowGather2Dims N M C wf).batchCoord y 1
      + (rowGather2Dims N M C wf).offCoord y 1 = (y 1).val
    have hs : (rowGather2Dims N M C wf).start y idx 1 = 0 := by
      unfold GatherDims.start; exact dif_neg (show (1 : Fin 2) ∉ [(0 : Fin 2)] by decide)
    have ho : (rowGather2Dims N M C wf).offCoord y 1 = (y 1).val := by
      unfold GatherDims.offCoord
      rw [dif_pos ((GatherDims.mem_sKept _ _).mpr ⟨show (1 : Fin 2) ∉ [(0 : Fin 2)] by decide, List.not_mem_nil⟩)]
      rfl
    rw [hs, GatherDims.batchCoord_eq_zero _ _ _ List.not_mem_nil, ho]
    omega

/-- The dimension numbers of the row gather `x[i]` for an operand `[N, C]`, an array `[R, G, 1]` of start indices and the
    result `[R, G, C]`: result row `(r, g)` is the operand's row at start index `i[r, g, 0]`. -/
abbrev rowGather3Dims (N R G C : Nat)
    (wf : GatherDims.WF ⟨2, ![N, C]⟩ ⟨3, ![R, G, 1]⟩ ⟨3, ![R, G, C]⟩ [2] [0] [] [0] [] 2 ![1, C]) :
    GatherDims ⟨2, ![N, C]⟩ ⟨3, ![R, G, 1]⟩ ⟨3, ![R, G, C]⟩ where
  offsetDims := [2]
  collapsedSliceDims := [0]
  operandBatchingDims := []
  startIndicesBatchingDims := []
  startIndexMap := [0]
  indexVectorDim := 2
  sliceSizes := ![1, C]
  wf := wf

/-- The row gather over an index array read at `(r, g, c)`: the operand at row `i[r, g, 0]`, read signed and clamped into
    `[0, N − 1]`, and column `c`. -/
theorem rowGather3_apply {N R G C w : Nat} (hN : 0 < N)
    (wf : GatherDims.WF ⟨2, ![N, C]⟩ ⟨3, ![R, G, 1]⟩ ⟨3, ![R, G, C]⟩ [2] [0] [] [0] [] 2 ![1, C])
    (x : (⟨2, ![N, C]⟩ : Shape).Idx → α) (idx : IVec ⟨3, ![R, G, 1]⟩ w) (y : (⟨3, ![R, G, C]⟩ : Shape).Idx) :
    Host.gather (rowGather3Dims N R G C wf) x idx y
      = x (ix2 ⟨min (idx (ix3 (y 0) (y 1) 0)).toInt.toNat (N - 1), by omega⟩ (y 2)) := by
  unfold Host.gather
  congr 1
  funext a
  refine Fin.ext ?_
  match a with
  | ⟨0, _⟩ =>
    show (rowGather3Dims N R G C wf).start y idx 0 + (rowGather3Dims N R G C wf).batchCoord y 0
      + (rowGather3Dims N R G C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather3Dims N R G C wf).startIndexMap from List.mem_singleton.mpr rfl)]
    have hsi : (rowGather3Dims N R G C wf).siIdx y ⟨List.idxOf (0 : Fin 2) (rowGather3Dims N R G C wf).startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    rw [hsi]
    rfl
  | ⟨1, _⟩ =>
    show (rowGather3Dims N R G C wf).start y idx 1 + (rowGather3Dims N R G C wf).batchCoord y 1
      + (rowGather3Dims N R G C wf).offCoord y 1 = (y 2).val
    have hs : (rowGather3Dims N R G C wf).start y idx 1 = 0 := by
      unfold GatherDims.start; exact dif_neg (show (1 : Fin 2) ∉ [(0 : Fin 2)] by decide)
    have ho : (rowGather3Dims N R G C wf).offCoord y 1 = (y 2).val := by
      unfold GatherDims.offCoord
      rw [dif_pos ((GatherDims.mem_sKept _ _).mpr ⟨show (1 : Fin 2) ∉ [(0 : Fin 2)] by decide, List.not_mem_nil⟩)]
      rfl
    rw [hs, GatherDims.batchCoord_eq_zero _ _ _ List.not_mem_nil, ho]
    omega

end Gather

section Scatter

/-- The dimension numbers of the row scatter `x.at[i].set(u)` for an operand `[N, C]`, a column `[M, 1]` of scatter indices
    and updates `[M, C]`: update row `p` goes to the operand's row `i[p, 0]`. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An element of update row `p` is kept only if the row's scatter index `i[p, 0]`, read signed, is a row of the
    operand. -/
theorem rowScatter_kept {N M C w : Nat}
    (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx)
    (h : (rowScatterDims N M C wf).resultIdx? j idx = some i) :
    0 ≤ (idx (ix2 (j 0) 0)).toInt ∧ (idx (ix2 (j 0) 0)).toInt < N := by
  unfold ScatterDims.resultIdx? at h
  split at h
  · rename_i hall
    have h0 := hall 0
    have hw : (rowScatterDims N M C wf).window j 0 = 0 := by
      unfold ScatterDims.window
      exact dif_neg (fun hm => (List.mem_filter.mp hm).2 |> fun hd => by simp at hd)
    have hs : (rowScatterDims N M C wf).start j idx 0 = (idx (ix2 (j 0) 0)).toInt := by
      unfold ScatterDims.start
      rw [dif_pos (show (0 : Fin 2) ∈ (rowScatterDims N M C wf).scatterDimsToOperandDims from List.mem_singleton.mpr rfl)]
      have hsi : (rowScatterDims N M C wf).siIdx j
          ⟨List.idxOf (0 : Fin 2) (rowScatterDims N M C wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hsz : (⟨2, ![N, C]⟩ : Shape).size 0 = N := rfl
    rw [hs, hw, hsz] at h0
    omega
  · cases h

end Scatter

end Cert.RowOps

end
-- ==== Proof.BlockValue.lean ====
/-
  What the kernel body leaves in its output block, read at an index, over the extended reals.

  The body stores once, through the whole-block rectangle, the value
      o = silu (silu (x · W¹ + b¹) · W² + b²) · W³ + b³
  of its seven input blocks: the row block `x : [1,1000,512]`, the species' weights `W¹, W² : [1,512,512]`,
  `W³ : [1,512,256]` and biases `b¹, b² : [1,1,512]`, `b³ : [1,1,256]`. Each matrix product accumulates into the zero
  splat, so at the extended reals it is the plain sum over the contraction index; a bias row is broadcast over the 1000
  rows; the logistic is the extended reals' and the narrowing to bf16 is the identity there. So entry `(0, r, o)` of the
  block is `Cert.Mlp.row` of the weights at the feature row `x (0, r, ·)`, at `o`.
-/
import proofs.«430737_j85435489452600_2_alg».proof.Proof.Gen.KernelIdeal.Frame
import proofs.«430737_j85435489452600_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Idealize.SL.Sem

/-! ## The two matrix products' operand indices, axis by axis -/

theorem lhs_sq_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_sq_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_sq_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_sq_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

theorem lhs_out_0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem lhs_out_1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
theorem rhs_out_0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
theorem rhs_out_1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-! ## A product into the zero accumulator, at an index -/

/-- A `[1000,512] × [512,512]` product into the zero splat, at `(r, h)`: the sum over `k` of `l (r, k) * w (k, h)`. -/
theorem matmul_sq_apply (l : FVec Ideal S1000x512 .bf16) (w : FVec Ideal S512x512 .bf16) (r : Fin 1000) (h : Fin 512) :
    matmul dot_S1000x512_S512x512_S1000x512_1_0_0_1_n_n none l w (constant (F := Ideal) S1000x512 .f32 0x00000000#32) (ix2 r h)
      = ∑ k : Fin 512, l (ix2 r k) * w (ix2 k h) := by
  simp only [matmul]
  rw [Ideal.matmul_constant_zero_apply, ← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 r h) ((ValueIdx.contrEquiv1 dot_S1000x512_S512x512_S1000x512_1_0_0_1_n_n 512 rfl rfl).symm k) = ix2 r k := funext fun a => Fin.ext (by
    match a with
    | ⟨0, _⟩ => exact lhs_sq_0 _ _
    | ⟨1, _⟩ => exact (lhs_sq_1 _ _).trans hk)
  have er : dot_S1000x512_S512x512_S1000x512_1_0_0_1_n_n.rhsIdx (ix2 r h) ((ValueIdx.contrEquiv1 dot_S1000x512_S512x512_S1000x512_1_0_0_1_n_n 512 rfl rfl).symm k) = ix2 k h := funext fun a => Fin.ext (by
    match a with
    | ⟨0, _⟩ => exact (rhs_sq_0 _ _).trans hk
    | ⟨1, _⟩ => exact rhs_sq_1 _ _)
  rw [el, er]

/-- A `[1000,512] × [512,256]` product into the zero splat, at `(r, h)`: the sum over `k` of `l (r, k) * w (k, h)`. -/
theorem matmul_out_apply (l : FVec Ideal S1000x512 .bf16) (w : FVec Ideal S512x256 .bf16) (r : Fin 1000) (h : Fin 256) :
    matmul dot_S1000x512_S512x256_S1000x256_1_0_0_1_n_n none l w (constant (F := Ideal) S1000x256 .f32 0x00000000#32) (ix2 r h)
      = ∑ k : Fin 512, l (ix2 r k) * w (ix2 k h) := by
  simp only [matmul]
  rw [Ideal.matmul_constant_zero_apply, ← Equiv.sum_comp (ValueIdx.contrEquiv1 dot_S1000x512_S512x256_S1000x256_1_0_0_1_n_n 512 rfl rfl).symm]
  refine Finset.sum_congr rfl fun k _ => ?_
  have hk := ValueIdx.contrEquiv1_symm_val dot_S1000x512_S512x256_S1000x256_1_0_0_1_n_n 512 rfl rfl k
  have el : dot_S1000x512_S512x256_S1000x256_1_0_0_1_n_n.lhsIdx (ix2 r h) ((ValueIdx.contrEquiv1 dot_S1000x512_S512x256_S1000x256_1_0_0_1_n_n 512 rfl rfl).symm k) = ix2 r k := funext fun a => Fin.ext (by
    match a with
    | ⟨0, _⟩ => exact lhs_out_0 _ _
    | ⟨1, _⟩ => exact (lhs_out_1 _ _).trans hk)
  have er : dot_S1000x512_S512x256_S1000x256_1_0_0_1_n_n.rhsIdx (ix2 r h) ((ValueIdx.contrEquiv1 dot_S1000x512_S512x256_S1000x256_1_0_0_1_n_n 512 rfl rfl).symm k) = ix2 k h := funext fun a => Fin.ext (by
    match a with
    | ⟨0, _⟩ => exact (rhs_out_0 _ _).trans hk
    | ⟨1, _⟩ => exact rhs_out_1 _ _)
  rw [el, er]

/-! ## A bias row over the rows, at an index -/

/-- A `[1,1,512]` bias block viewed `[1,512]` and broadcast over the 1000 rows reads, at `(r, h)`, the bias at `h`. -/
theorem bias512_apply (b : Vec Ideal S1x1x512 .f32) (h1 : S1x1x512.ShapeCasts S1x512) (h2 : S1x512.ShapeCasts S1x512)
    (hb : S1x512.Broadcasts S1000x512) (r : Fin 1000) (h : Fin 512) :
    broadcastTo S1000x512 (shapeCast S1x512 (shapeCast S1x512 b h1) h2) hb (ix2 r h) = b (ix3 0 0 h) := by
  rw [shapeCast_self, broadcastTo_1b_ab_apply, shapeCast_1ab_ab_apply]

/-- A `[1,1,256]` bias block viewed `[1,256]` and broadcast over the 1000 rows reads, at `(r, o)`, the bias at `o`. -/
theorem bias256_apply (b : Vec Ideal S1x1x256 .f32) (h1 : S1x1x256.ShapeCasts S1x256) (h2 : S1x256.ShapeCasts S1x256)
    (hb : S1x256.Broadcasts S1000x256) (r : Fin 1000) (o : Fin 256) :
    broadcastTo S1000x256 (shapeCast S1x256 (shapeCast S1x256 b h1) h2) hb (ix2 r o) = b (ix3 0 0 o) := by
  rw [shapeCast_self, broadcastTo_1b_ab_apply, shapeCast_1ab_ab_apply]

/-! ## The layers as the body computes them -/

/-- A hidden layer before its activation: the rows `l` times the weight block, plus the bias row. -/
def preSq (l : FVec Ideal S1000x512 .bf16) (W : Vec Ideal S1x512x512 .bf16) (b : Vec Ideal S1x1x512 .f32) : FVec Ideal S1000x512 .f32 :=
  addf (matmul dot_S1000x512_S512x512_S1000x512_1_0_0_1_n_n none l (shapeCast S512x512 W shapeCasts_S1x512x512_S512x512 : FVec Ideal S512x512 .bf16)
      (constant (F := Ideal) S1000x512 .f32 0x00000000#32))
    (broadcastTo S1000x512 (shapeCast S1x512 (shapeCast S1x512 b shapeCasts_S1x1x512_S1x512) shapeCasts_S1x512_S1x512) broadcasts_S1x512_S1000x512)

/-- A hidden layer: `z * logistic z` of `preSq`, narrowed to bf16 (the identity on the extended reals). -/
def actSq (l : FVec Ideal S1000x512 .bf16) (W : Vec Ideal S1x512x512 .bf16) (b : Vec Ideal S1x1x512 .f32) : FVec Ideal S1000x512 .bf16 :=
  truncf .bf16 (mulf (preSq l W b) (logistic (preSq l W b))) bitsLt_bf16_f32

/-- The output layer: the rows `l` times the `[512,256]` weight block, plus the bias row; no activation. -/
def preOut (l : FVec Ideal S1000x512 .bf16) (W : Vec Ideal S1x512x256 .bf16) (b : Vec Ideal S1x1x256 .f32) : FVec Ideal S1000x256 .f32 :=
  addf (matmul dot_S1000x512_S512x256_S1000x256_1_0_0_1_n_n none l (shapeCast S512x256 W shapeCasts_S1x512x256_S512x256 : FVec Ideal S512x256 .bf16)
      (constant (F := Ideal) S1000x256 .f32 0x00000000#32))
    (broadcastTo S1000x256 (shapeCast S1x256 (shapeCast S1x256 b shapeCasts_S1x1x256_S1x256) shapeCasts_S1x256_S1x256) broadcasts_S1x256_S1000x256)

/-- `preSq` at `(r, h)` is the affine layer of the row `l (r, ·)`, at `h`. -/
theorem preSq_apply (l : FVec Ideal S1000x512 .bf16) (W : Vec Ideal S1x512x512 .bf16) (b : Vec Ideal S1x1x512 .f32)
    (r : Fin 1000) (h : Fin 512) :
    preSq l W b (ix2 r h)
      = Cert.Mlp.affine (fun k h => W (ix3 0 k h)) (fun h => b (ix3 0 0 h)) (fun k => l (ix2 r k)) h := by
  unfold preSq Cert.Mlp.affine
  rw [addf_apply, matmul_sq_apply, bias512_apply]
  simp only [shapeCast_1ab_ab_apply]

/-- `actSq` at `(r, h)` is silu of that affine layer. -/
theorem actSq_apply (l : FVec Ideal S1000x512 .bf16) (W : Vec Ideal S1x512x512 .bf16) (b : Vec Ideal S1x1x512 .f32)
    (r : Fin 1000) (h : Fin 512) :
    actSq l W b (ix2 r h)
      = Cert.Mlp.silu (Cert.Mlp.affine (fun k h => W (ix3 0 k h)) (fun h => b (ix3 0 0 h)) (fun k => l (ix2 r k)) h) := by
  rw [← preSq_apply]
  rfl

/-- `preOut` at `(r, o)` is the affine output layer of the row `l (r, ·)`, at `o`. -/
theorem preOut_apply (l : FVec Ideal S1000x512 .bf16) (W : Vec Ideal S1x512x256 .bf16) (b : Vec Ideal S1x1x256 .f32)
    (r : Fin 1000) (o : Fin 256) :
    preOut l W b (ix2 r o)
      = Cert.Mlp.affine (fun k h => W (ix3 0 k h)) (fun h => b (ix3 0 0 h)) (fun k => l (ix2 r k)) o := by
  unfold preOut Cert.Mlp.affine
  rw [addf_apply, matmul_out_apply, bias256_apply]
  simp only [shapeCast_1ab_ab_apply]

/-! ## The payload and the block -/

/-- The body's value is the three layers composed, on the row block viewed `[1000,512]`. -/
theorem k0_pay2_eq (x0 : Vec Ideal S1x1000x512 .bf16) (x1 : Vec Ideal S1x512x512 .bf16) (x2 : Vec Ideal S1x1x512 .f32)
    (x3 : Vec Ideal S1x512x512 .bf16) (x4 : Vec Ideal S1x1x512 .f32) (x5 : Vec Ideal S1x512x256 .bf16) (x6 : Vec Ideal S1x1x256 .f32) :
    k0_pay2 (F := Ideal) x0 x1 x2 x3 x4 x5 x6
      = preOut (actSq (actSq (shapeCast S1000x512 x0 shapeCasts_S1x1000x512_S1000x512) x1 x2) x3 x4) x5 x6 := rfl

/-- The body's value at `(r, o)`: the three-layer perceptron of the feature row `x0 (0, r, ·)`, at `o`. -/
theorem k0_pay2_apply (x0 : Vec Ideal S1x1000x512 .bf16) (x1 : Vec Ideal S1x512x512 .bf16) (x2 : Vec Ideal S1x1x512 .f32)
    (x3 : Vec Ideal S1x512x512 .bf16) (x4 : Vec Ideal S1x1x512 .f32) (x5 : Vec Ideal S1x512x256 .bf16) (x6 : Vec Ideal S1x1x256 .f32)
    (r : Fin 1000) (o : Fin 256) :
    k0_pay2 (F := Ideal) x0 x1 x2 x3 x4 x5 x6 (ix2 r o)
      = Cert.Mlp.row (fun k h => x1 (ix3 0 k h)) (fun h => x2 (ix3 0 0 h)) (fun k h => x3 (ix3 0 k h)) (fun h => x4 (ix3 0 0 h))
          (fun k h => x5 (ix3 0 k h)) (fun h => x6 (ix3 0 0 h)) (fun k => x0 (ix3 0 r k)) o := by
  rw [k0_pay2_eq, preOut_apply]
  unfold Cert.Mlp.row
  simp only [actSq_apply, shapeCast_1ab_ab_apply]

/-- What the body leaves in the output block, at `(0, r, o)`: its one store covers the whole block, its loads read the
    whole input blocks, and the stored value is the payload viewed `[1,1000,256]`. -/
theorem out0_7_apply (x0 : Vec Ideal S1x1000x512 .bf16) (x1 : Vec Ideal S1x512x512 .bf16) (x2 : Vec Ideal S1x1x512 .f32)
    (x3 : Vec Ideal S1x512x512 .bf16) (x4 : Vec Ideal S1x1x512 .f32) (x5 : Vec Ideal S1x512x256 .bf16) (x6 : Vec Ideal S1x1x256 .f32)
    (r : Fin 1000) (o : Fin 256) :
    Cert.KernelIdeal.Gen.out0_7 (F := Ideal) x0 x1 x2 x3 x4 x5 x6 (ix3 0 r o)
      = Cert.Mlp.row (fun k h => x1 (ix3 0 k h)) (fun h => x2 (ix3 0 0 h)) (fun k h => x3 (ix3 0 k h)) (fun h => x4 (ix3 0 0 h))
          (fun k h => x5 (ix3 0 k h)) (fun h => x6 (ix3 0 0 h)) (fun k => x0 (ix3 0 r k)) o := by
  have hz : (![0, 0, 0] : Fin 3 → Nat) = fun _ => 0 := by
    funext a; match a with | ⟨0, _⟩ => rfl | ⟨1, _⟩ => rfl | ⟨2, _⟩ => rfl
  unfold out0_7
  rw [View.canon_unit_zero hz]
  simp only [View.ld_unit_zero (S := S1x1000x512) hz, View.ld_unit_zero (S := S1x512x512) hz, View.ld_unit_zero (S := S1x1x512) hz,
    View.ld_unit_zero (S := S1x512x256) hz, View.ld_unit_zero (S := S1x1x256) hz]
  unfold k0_pay1
  rw [shapeCast_ab_1ab_apply]
  exact k0_pay2_apply x0 x1 x2 x3 x4 x5 x6 r o

end Cert.KernelIdeal.BlockValue

end
-- ==== Proof.ArrayValue.lean ====
/-
  From blocks to the array: the output array of the one pipelined region after its run, as one function of the arrays
  the region finds. Grid point t = 50 s + g handles species s and row block g: it reads rows 1000 g … 1000 g + 999 of
  species s's feature rows and the whole of species s's six weight and bias arrays, and writes back rows
  1000 g … 1000 g + 999 of species s's output rows. The 200 blocks tile the output array, so after the run entry
  (s, r, o) is the perceptron row of species s's weights at feature row (s, r), at column o.
-/
import proofs.«430737_j85435489452600_2_alg».proof.Proof.Gen.KernelIdeal.Frame
import proofs.«430737_j85435489452600_2_alg».proof.Proof.Spec
import proofs.«430737_j85435489452600_2_alg».proof.Proof.BlockValue
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arrays the region finds, each at its literal type -/

/-- The feature rows, [4, 50000, 512]. -/
abbrev xarr (c : Dev nD) : S4x50000x512.Idx → EReal := Gen.V m c main_v3
/-- First layer's weights, [4, 512, 512]. -/
abbrev w1arr (c : Dev nD) : S4x512x512.Idx → EReal := Gen.V m c main_v4
/-- First layer's bias, [4, 1, 512]. -/
abbrev b1arr (c : Dev nD) : S4x1x512.Idx → EReal := Gen.V m c main_v7
/-- Second layer's weights, [4, 512, 512]. -/
abbrev w2arr (c : Dev nD) : S4x512x512.Idx → EReal := Gen.V m c main_v5
/-- Second layer's bias, [4, 1, 512]. -/
abbrev b2arr (c : Dev nD) : S4x1x512.Idx → EReal := Gen.V m c main_v8
/-- Third layer's weights, [4, 512, 256]. -/
abbrev w3arr (c : Dev nD) : S4x512x256.Idx → EReal := Gen.V m c main_v6
/-- Third layer's bias, [4, 1, 256]. -/
abbrev b3arr (c : Dev nD) : S4x1x256.Idx → EReal := Gen.V m c main_v9

/-- What the output array ends holding: entry (s, r, o) is the perceptron row of species s at feature row (s, r). -/
abbrev G (c : Dev nD) : S4x50000x256.Idx → EReal := fun i =>
  Cert.Mlp.row (fun k h => w1arr m c (ix3 (i 0) k h)) (fun h => b1arr m c (ix3 (i 0) 0 h))
    (fun k h => w2arr m c (ix3 (i 0) k h)) (fun h => b2arr m c (ix3 (i 0) 0 h))
    (fun k h => w3arr m c (ix3 (i 0) k h)) (fun h => b3arr m c (ix3 (i 0) 0 h))
    (fun k => xarr m c (ix3 (i 0) (i 1) k)) (i 2)

/-! ## The index maps over the grid -/

/-- The printed index maps, decided over the 200 grid points: at point t the feature window and the output window
    sit at block (t / 50, t % 50, 0), the six weight and bias windows at block (t / 50, 0, 0). -/
theorem idx_facts : ∀ t : Fin cfg0.N,
    (win0_0.index t (0 : Fin 3) = t.val / 50 ∧ win0_0.index t (1 : Fin 3) = t.val % 50 ∧ win0_0.index t (2 : Fin 3) = 0)
    ∧ (win0_1.index t (0 : Fin 3) = t.val / 50 ∧ win0_1.index t (1 : Fin 3) = 0 ∧ win0_1.index t (2 : Fin 3) = 0)
    ∧ (win0_2.index t (0 : Fin 3) = t.val / 50 ∧ win0_2.index t (1 : Fin 3) = 0 ∧ win0_2.index t (2 : Fin 3) = 0)
    ∧ (win0_3.index t (0 : Fin 3) = t.val / 50 ∧ win0_3.index t (1 : Fin 3) = 0 ∧ win0_3.index t (2 : Fin 3) = 0)
    ∧ (win0_4.index t (0 : Fin 3) = t.val / 50 ∧ win0_4.index t (1 : Fin 3) = 0 ∧ win0_4.index t (2 : Fin 3) = 0)
    ∧ (win0_5.index t (0 : Fin 3) = t.val / 50 ∧ win0_5.index t (1 : Fin 3) = 0 ∧ win0_5.index t (2 : Fin 3) = 0)
    ∧ (win0_6.index t (0 : Fin 3) = t.val / 50 ∧ win0_6.index t (1 : Fin 3) = 0 ∧ win0_6.index t (2 : Fin 3) = 0)
    ∧ (win0_7.index t (0 : Fin 3) = t.val / 50 ∧ win0_7.index t (1 : Fin 3) = t.val % 50 ∧ win0_7.index t (2 : Fin 3) = 0) :=
  (by decide +kernel : ∀ t : Fin grid0.N, _)

/-! ## The windows' blocks, read off the arrays -/

/-- Window 0's block at point t sits in its array at block (t / 50, t % 50, 0). -/
theorem emb0 (t : Fin cfg0.N) (x : S1x1000x512.Idx) (j : S4x50000x512.Idx)
    (h0 : (j 0).val = t.val / 50) (h1 : (j 1).val = t.val % 50 * 1000 + (x 1).val) (h2 : (j 2).val = (x 2).val) :
    ((cfg0.win 0).blk t).view.emb x = j := by
  obtain ⟨⟨e0, e1, e2⟩, -, -, -, -, -, -, -⟩ := idx_facts t
  funext a
  apply Fin.ext
  match a with
  | ⟨0, _⟩ => show win0_0.index t (0 : Fin 3) * 1 + 1 * (x 0).val = (j 0).val; have hx : (x 0).val < 1 := (x 0).isLt; omega
  | ⟨1, _⟩ => show win0_0.index t (1 : Fin 3) * 1000 + 1 * (x 1).val = (j 1).val; omega
  | ⟨2, _⟩ => show win0_0.index t (2 : Fin 3) * 512 + 1 * (x 2).val = (j 2).val; omega

/-- So the block, read off any contents A of the array, is A at those entries. -/
theorem read0 (t : Fin cfg0.N) (A : S4x50000x512.Idx → EReal) (x : S1x1000x512.Idx) (j : S4x50000x512.Idx)
    (h0 : (j 0).val = t.val / 50) (h1 : (j 1).val = t.val % 50 * 1000 + (x 1).val) (h2 : (j 2).val = (x 2).val) :
    (((cfg0.win 0).blk t).view.read (Elt Ideal) A : Vec Ideal S1x1000x512 .bf16) x = A j := by
  show A (((cfg0.win 0).blk t).view.emb x) = A j
  rw [emb0 t x j h0 h1 h2]

theorem iblk0_apply (c : Dev nD) (t : Fin cfg0.N) (x : S1x1000x512.Idx) (j : S4x50000x512.Idx)
    (h0 : (j 0).val = t.val / 50) (h1 : (j 1).val = t.val % 50 * 1000 + (x 1).val) (h2 : (j 2).val = (x 2).val) :
    (Gen.iblk m c 0 t : Vec Ideal S1x1000x512 .bf16) x = xarr m c j := by
  unfold Gen.iblk
  exact read0 t (xarr m c) x j h0 h1 h2

/-- Window 1's block at point t sits in its array at block (t / 50, 0, 0). -/
theorem emb1 (t : Fin cfg0.N) (x : S1x512x512.Idx) (j : S4x512x512.Idx)
    (h0 : (j 0).val = t.val / 50) (h1 : (j 1).val = (x 1).val) (h2 : (j 2).val = (x 2).val) :
    ((cfg0.win 1).blk t).view.emb x = j := by
  obtain ⟨-, ⟨e0, e1, e2⟩, -, -, -, -, -, -⟩ := idx_facts t
  funext a
  apply Fin.ext
  match a with
  | ⟨0, _⟩ => show win0_1.index t (0 : Fin 3) * 1 + 1 * (x 0).val = (j 0).val; have hx : (x 0).val < 1 := (x 0).isLt; omega
  | ⟨1, _⟩ => show win0_1.index t (1 : Fin 3) * 512 + 1 * (x 1).val = (j 1).val; omega
  | ⟨2, _⟩ => show win0_1.index t (2 : Fin 3) * 512 + 1 * (x 2).val = (j 2).val; omega

/-- So the block, read off any contents A of the array, is A at those entries. -/
theorem read1 (t : Fin cfg0.N) (A : S4x512x512.Idx → EReal) (x : S1x512x512.Idx) (j : S4x512x512.Idx)
    (h0 : (j 0).val = t.val / 50) (h1 : (j 1).val = (x 1).val) (h2 : (j 2).val = (x 2).val) :
    (((cfg0.win 1).blk t).view.read (Elt Ideal) A : Vec Ideal S1x512x512 .bf16) x = A j := by
  show A (((cfg0.win 1).blk t).view.emb x) = A j
  rw [emb1 t x j h0 h1 h2]

theorem iblk1_apply (c : Dev nD) (t : Fin cfg0.N) (x : S1x512x512.Idx) (j : S4x512x512.Idx)
    (h0 : (j 0).val = t.val / 50) (h1 : (j 1).val = (x 1).val) (h2 : (j 2).val = (x 2).val) :
    (Gen.iblk m c 1 t : Vec Ideal S1x512x512 .bf16) x = w1arr m c j := by
  unfold Gen.iblk
  exact read1 t (w1arr m c) x j h0 h1 h2

/-- Window 2's block at point t sits in its array at block (t / 50, 0, 0). -/
theorem emb2 (t : Fin cfg0.N) (x : S1x1x512.Idx) (j : S4x1x512.Idx)
    (h0 : (j 0).val = t.val / 50) (h1 : (j 1).val = (x 1).val) (h2 : (j 2).val = (x 2).val) :
    ((cfg0.win 2).blk t).view.emb x = j := by
  obtain ⟨-, -, ⟨e0, e1, e2⟩, -, -, -, -, -⟩ := idx_facts t
  funext a
  apply Fin.ext
  match a with
  | ⟨0, _⟩ => show win0_2.index t (0 : Fin 3) * 1 + 1 * (x 0).val = (j 0).val; have hx : (x 0).val < 1 := (x 0).isLt; omega
  | ⟨1, _⟩ => show win0_2.index t (1 : Fin 3) * 1 + 1 * (x 1).val = (j 1).val; have hx1 : (x 1).val < 1 := (x 1).isLt; omega
  | ⟨2, _⟩ => show win0_2.index t (2 : Fin 3) * 512 + 1 * (x 2).val = (j 2).val; omega

/-- So the block, read off any contents A of the array, is A at those entries. -/
theorem read2 (t : Fin cfg0.N) (A : S4x1x512.Idx → EReal) (x : S1x1x512.Idx) (j : S4x1x512.Idx)
    (h0 : (j 0).val = t.val / 50) (h1 : (j 1).val = (x 1).val) (h2 : (j 2).val = (x 2).val) :
    (((cfg0.win 2).blk t).view.read (Elt Ideal) A : Vec Ideal S1x1x512 .f32) x = A j := by
  show A (((cfg0.win 2).blk t).view.emb x) = A j
  rw [emb2 t x j h0 h1 h2]

theorem iblk2_apply (c : Dev nD) (t : Fin cfg0.N) (x : S1x1x512.Idx) (j : S4x1x512.Idx)
    (h0 : (j 0).val = t.val / 50) (h1 : (j 1).val = (x 1).val) (h2 : (j 2).val = (x 2).val) :
    (Gen.iblk m c 2 t : Vec Ideal S1x1x512 .f32) x = b1arr m c j := by
  unfold Gen.iblk
  exact read2 t (b1arr m c) x j h0 h1 h2

/-- Window 3's block at point t sits in its array at block (t / 50, 0, 0). -/
theorem emb3 (t : Fin cfg0.N) (x : S1x512x512.Idx) (j : S4x512x512.Idx)
    (h0 : (j 0).val = t.val / 50) (h1 : (j 1).val = (x 1).val) (h2 : (j 2).val = (x 2).val) :
    ((cfg0.win 3).blk t).view.emb x = j := by
  obtain ⟨-, -, -, ⟨e0, e1, e2⟩, -, -, -, -⟩ := idx_facts t
  funext a
  apply Fin.ext
  match a with
  | ⟨0, _⟩ => show win0_3.index t (0 : Fin 3) * 1 + 1 * (x 0).val = (j 0).val; have hx : (x 0).val < 1 := (x 0).isLt; omega
  | ⟨1, _⟩ => show win0_3.index t (1 : Fin 3) * 512 + 1 * (x 1).val = (j 1).val; omega
  | ⟨2, _⟩ => show win0_3.index t (2 : Fin 3) * 512 + 1 * (x 2).val = (j 2).val; omega

/-- So the block, read off any contents A of the array, is A at those entries. -/
theorem read3 (t : Fin cfg0.N) (A : S4x512x512.Idx → EReal) (x : S1x512x512.Idx) (j : S4x512x512.Idx)
    (h0 : (j 0).val = t.val / 50) (h1 : (j 1).val = (x 1).val) (h2 : (j 2).val = (x 2).val) :
    (((cfg0.win 3).blk t).view.read (Elt Ideal) A : Vec Ideal S1x512x512 .bf16) x = A j := by
  show A (((cfg0.win 3).blk t).view.emb x) = A j
  rw [emb3 t x j h0 h1 h2]

theorem iblk3_apply (c : Dev nD) (t : Fin cfg0.N) (x : S1x512x512.Idx) (j : S4x512x512.Idx)
    (h0 : (j 0).val = t.val / 50) (h1 : (j 1).val = (x 1).val) (h2 : (j 2).val = (x 2).val) :
    (Gen.iblk m c 3 t : Vec Ideal S1x512x512 .bf16) x = w2arr m c j := by
  unfold Gen.iblk
  exact read3 t (w2arr m c) x j h0 h1 h2

/-- Window 4's block at point t sits in its array at block (t / 50, 0, 0). -/
theorem emb4 (t : Fin cfg0.N) (x : S1x1x512.Idx) (j : S4x1x512.Idx)
    (h0 : (j 0).val = t.val / 50) (h1 : (j 1).val = (x 1).val) (h2 : (j 2).val = (x 2).val) :
    ((cfg0.win 4).blk t).view.emb x = j := by
  obtain ⟨-, -, -, -, ⟨e0, e1, e2⟩, -, -, -⟩ := idx_facts t
  funext a
  apply Fin.ext
  match a with
  | ⟨0, _⟩ => show win0_4.index t (0 : Fin 3) * 1 + 1 * (x 0).val = (j 0).val; have hx : (x 0).val < 1 := (x 0).isLt; omega
  | ⟨1, _⟩ => show win0_4.index t (1 : Fin 3) * 1 + 1 * (x 1).val = (j 1).val; have hx1 : (x 1).val < 1 := (x 1).isLt; omega
  | ⟨2, _⟩ => show win0_4.index t (2 : Fin 3) * 512 + 1 * (x 2).val = (j 2).val; omega

/-- So the block, read off any contents A of the array, is A at those entries. -/
theorem read4 (t : Fin cfg0.N) (A : S4x1x512.Idx → EReal) (x : S1x1x512.Idx) (j : S4x1x512.Idx)
    (h0 : (j 0).val = t.val / 50) (h1 : (j 1).val = (x 1).val) (h2 : (j 2).val = (x 2).val) :
    (((cfg0.win 4).blk t).view.read (Elt Ideal) A : Vec Ideal S1x1x512 .f32) x = A j := by
  show A (((cfg0.win 4).blk t).view.emb x) = A j
  rw [emb4 t x j h0 h1 h2]

theorem iblk4_apply (c : Dev nD) (t : Fin cfg0.N) (x : S1x1x512.Idx) (j : S4x1x512.Idx)
    (h0 : (j 0).val = t.val / 50) (h1 : (j 1).val = (x 1).val) (h2 : (j 2).val = (x 2).val) :
    (Gen.iblk m c 4 t : Vec Ideal S1x1x512 .f32) x = b2arr m c j := by
  unfold Gen.iblk
  exact read4 t (b2arr m c) x j h0 h1 h2

/-- Window 5's block at point t sits in its array at block (t / 50, 0, 0). -/
theorem emb5 (t : Fin cfg0.N) (x : S1x512x256.Idx) (j : S4x512x256.Idx)
    (h0 : (j 0).val = t.val / 50) (h1 : (j 1).val = (x 1).val) (h2 : (j 2).val = (x 2).val) :
    ((cfg0.win 5).blk t).view.emb x = j := by
  obtain ⟨-, -, -, -, -, ⟨e0, e1, e2⟩, -, -⟩ := idx_facts t
  funext a
  apply Fin.ext
  match a with
  | ⟨0, _⟩ => show win0_5.index t (0 : Fin 3) * 1 + 1 * (x 0).val = (j 0).val; have hx : (x 0).val < 1 := (x 0).isLt; omega
  | ⟨1, _⟩ => show win0_5.index t (1 : Fin 3) * 512 + 1 * (x 1).val = (j 1).val; omega
  | ⟨2, _⟩ => show win0_5.index t (2 : Fin 3) * 256 + 1 * (x 2).val = (j 2).val; omega

/-- So the block, read off any contents A of the array, is A at those entries. -/
theorem read5 (t : Fin cfg0.N) (A : S4x512x256.Idx → EReal) (x : S1x512x256.Idx) (j : S4x512x256.Idx)
    (h0 : (j 0).val = t.val / 50) (h1 : (j 1).val = (x 1).val) (h2 : (j 2).val = (x 2).val) :
    (((cfg0.win 5).blk t).view.read (Elt Ideal) A : Vec Ideal S1x512x256 .bf16) x = A j := by
  show A (((cfg0.win 5).blk t).view.emb x) = A j
  rw [emb5 t x j h0 h1 h2]

theorem iblk5_apply (c : Dev nD) (t : Fin cfg0.N) (x : S1x512x256.Idx) (j : S4x512x256.Idx)
    (h0 : (j 0).val = t.val / 50) (h1 : (j 1).val = (x 1).val) (h2 : (j 2).val = (x 2).val) :
    (Gen.iblk m c 5 t : Vec Ideal S1x512x256 .bf16) x = w3arr m c j := by
  unfold Gen.iblk
  exact read5 t (w3arr m c) x j h0 h1 h2

/-- Window 6's block at point t sits in its array at block (t / 50, 0, 0). -/
theorem emb6 (t : Fin cfg0.N) (x : S1x1x256.Idx) (j : S4x1x256.Idx)
    (h0 : (j 0).val = t.val / 50) (h1 : (j 1).val = (x 1).val) (h2 : (j 2).val = (x 2).val) :
    ((cfg0.win 6).blk t).view.emb x = j := by
  obtain ⟨-, -, -, -, -, -, ⟨e0, e1, e2⟩, -⟩ := idx_facts t
  funext a
  apply Fin.ext
  match a with
  | ⟨0, _⟩ => show win0_6.index t (0 : Fin 3) * 1 + 1 * (x 0).val = (j 0).val; have hx : (x 0).val < 1 := (x 0).isLt; omega
  | ⟨1, _⟩ => show win0_6.index t (1 : Fin 3) * 1 + 1 * (x 1).val = (j 1).val; have hx1 : (x 1).val < 1 := (x 1).isLt; omega
  | ⟨2, _⟩ => show win0_6.index t (2 : Fin 3) * 256 + 1 * (x 2).val = (j 2).val; omega

/-- So the block, read off any contents A of the array, is A at those entries. -/
theorem read6 (t : Fin cfg0.N) (A : S4x1x256.Idx → EReal) (x : S1x1x256.Idx) (j : S4x1x256.Idx)
    (h0 : (j 0).val = t.val / 50) (h1 : (j 1).val = (x 1).val) (h2 : (j 2).val = (x 2).val) :
    (((cfg0.win 6).blk t).view.read (Elt Ideal) A : Vec Ideal S1x1x256 .f32) x = A j := by
  show A (((cfg0.win 6).blk t).view.emb x) = A j
  rw [emb6 t x j h0 h1 h2]

theorem iblk6_apply (c : Dev nD) (t : Fin cfg0.N) (x : S1x1x256.Idx) (j : S4x1x256.Idx)
    (h0 : (j 0).val = t.val / 50) (h1 : (j 1).val = (x 1).val) (h2 : (j 2).val = (x 2).val) :
    (Gen.iblk m c 6 t : Vec Ideal S1x1x256 .f32) x = b3arr m c j := by
  unfold Gen.iblk
  exact read6 t (b3arr m c) x j h0 h1 h2

/-- An entry (0, r, o) of the output window's block at point t sits in the output array at species t / 50,
    row 1000 (t % 50) + r, column o. -/
theorem emb7_val (t : Fin cfg0.N) (y : S1x1000x256.Idx) :
    ((((cfg0.win 7).blk t).view.emb y : S4x50000x256.Idx) 0).val = t.val / 50
    ∧ ((((cfg0.win 7).blk t).view.emb y : S4x50000x256.Idx) 1).val = t.val % 50 * 1000 + (y 1).val
    ∧ ((((cfg0.win 7).blk t).view.emb y : S4x50000x256.Idx) 2).val = (y 2).val := by
  obtain ⟨-, -, -, -, -, -, -, ⟨e0, e1, e2⟩⟩ := idx_facts t
  refine ⟨?_, ?_, ?_⟩
  · show win0_7.index t (0 : Fin 3) * 1 + 1 * (y 0).val = t.val / 50; have hy : (y 0).val < 1 := (y 0).isLt; omega
  · show win0_7.index t (1 : Fin 3) * 1000 + 1 * (y 1).val = t.val % 50 * 1000 + (y 1).val; omega
  · show win0_7.index t (2 : Fin 3) * 256 + 1 * (y 2).val = (y 2).val; omega

/-- An index of the output window's block is (0, r, o). -/
theorem idx_block (y : S1x1000x256.Idx) : y = ix3 (0 : Fin 1) (y 1) (y 2) := by
  funext a
  match a with
  | ⟨0, _⟩ => exact Fin.ext (by show (y 0).val = 0; have hlt : (y 0).val < 1 := (y 0).isLt; omega)
  | ⟨1, _⟩ => rfl
  | ⟨2, _⟩ => rfl

/-! ## What a point writes back -/

/-- The perceptron row depends on its operands entry by entry. -/
theorem row_congr {W1 W1' : Fin 512 → Fin 512 → EReal} {b1 b1' : Fin 512 → EReal}
    {W2 W2' : Fin 512 → Fin 512 → EReal} {b2 b2' : Fin 512 → EReal}
    {W3 W3' : Fin 512 → Fin 256 → EReal} {b3 b3' : Fin 256 → EReal} {x x' : Fin 512 → EReal} {o o' : Fin 256}
    (hW1 : ∀ k h, W1 k h = W1' k h) (hb1 : ∀ h, b1 h = b1' h) (hW2 : ∀ k h, W2 k h = W2' k h) (hb2 : ∀ h, b2 h = b2' h)
    (hW3 : ∀ k h, W3 k h = W3' k h) (hb3 : ∀ h, b3 h = b3' h) (hx : ∀ k, x k = x' k) (ho : o = o') :
    Cert.Mlp.row W1 b1 W2 b2 W3 b3 x o = Cert.Mlp.row W1' b1' W2' b2' W3' b3' x' o' := by
  obtain rfl : W1 = W1' := funext fun k => funext (hW1 k)
  obtain rfl : b1 = b1' := funext hb1
  obtain rfl : W2 = W2' := funext fun k => funext (hW2 k)
  obtain rfl : b2 = b2' := funext hb2
  obtain rfl : W3 = W3' := funext fun k => funext (hW3 k)
  obtain rfl : b3 = b3' := funext hb3
  obtain rfl : x = x' := funext hx
  rw [ho]

/-- The body's result at point t, at row r and column o of its block, is the array function G at any entry i of the
    output array that lies at species t / 50, row 1000 (t % 50) + r, column o. -/
theorem block_row (c : Dev nD) (t : Fin cfg0.N) (r : Fin 1000) (o : Fin 256) (i : S4x50000x256.Idx)
    (h0 : (i 0).val = t.val / 50) (h1 : (i 1).val = t.val % 50 * 1000 + r.val) (h2 : (i 2).val = o.val) :
    Gen.out0_7 (F := Ideal) (Gen.iblk m c 0 t) (Gen.iblk m c 1 t) (Gen.iblk m c 2 t) (Gen.iblk m c 3 t) (Gen.iblk m c 4 t)
      (Gen.iblk m c 5 t) (Gen.iblk m c 6 t) (ix3 0 r o) = G m c i := by
  refine (Cert.KernelIdeal.BlockValue.out0_7_apply (Gen.iblk m c 0 t) (Gen.iblk m c 1 t) (Gen.iblk m c 2 t)
    (Gen.iblk m c 3 t) (Gen.iblk m c 4 t) (Gen.iblk m c 5 t) (Gen.iblk m c 6 t) r o).trans ?_
  refine row_congr (fun k h => ?_) (fun h => ?_) (fun k h => ?_) (fun h => ?_) (fun k h => ?_) (fun h => ?_) (fun k => ?_) ?_
  · exact iblk1_apply m c t (ix3 0 k h) (ix3 (i 0) k h) h0 rfl rfl
  · exact iblk2_apply m c t (ix3 0 0 h) (ix3 (i 0) 0 h) h0 rfl rfl
  · exact iblk3_apply m c t (ix3 0 k h) (ix3 (i 0) k h) h0 rfl rfl
  · exact iblk4_apply m c t (ix3 0 0 h) (ix3 (i 0) 0 h) h0 rfl rfl
  · exact iblk5_apply m c t (ix3 0 k h) (ix3 (i 0) k h) h0 rfl rfl
  · exact iblk6_apply m c t (ix3 0 0 h) (ix3 (i 0) 0 h) h0 rfl rfl
  · exact iblk0_apply m c t (ix3 0 r k) (ix3 (i 0) (i 1) k) h0 h1 rfl
  · exact (Fin.ext h2).symm

/-- A block X of the output window, read through the window at point t, is the block of an array function Gf as soon
    as it is Gf entry by entry. -/
theorem cut_eq_read (t : Fin cfg0.N) (X : Vec Ideal S1x1000x256 .f32) (Gf : S4x50000x256.Idx → EReal)
    (h : ∀ y : S1x1000x256.Idx, X y = Gf (((cfg0.win 7).blk t).view.emb y)) :
    (cfg0.win 7).cut (grid0.coords t) X = ((cfg0.win 7).blk t).view.read (Elt Ideal) Gf := by
  funext y
  exact h y

/-- WHAT POINT t WRITES BACK is block t of G of the arrays as the region finds them. -/
theorem flushed7_eq (c : Dev nD) (t : Fin cfg0.N) :
    (Gen.dats m 0 c).flushed 7 t = ((cfg0.win 7).blk t).view.read (Elt Ideal) (G m c) := by
  show (cfg0.win 7).cut (grid0.coords t) ((Gen.dats m 0 c).after 7 t) = _
  rw [Gen.after0_7]
  refine cut_eq_read t _ (G m c) fun y => ?_
  obtain ⟨r, o, rfl⟩ : ∃ (r : Fin 1000) (o : Fin 256), y = ix3 0 r o := ⟨y 1, y 2, idx_block y⟩
  obtain ⟨e0, e1, e2⟩ := emb7_val t (ix3 0 r o)
  exact block_row m c t r o (((cfg0.win 7).blk t).view.emb (ix3 0 r o)) e0 e1 e2

/-! ## The blocks tile the output array -/

/-- An entry of the output array is in point t's block iff each coordinate is in the block's range on its axis. -/
theorem mem_blk7 (t : Fin cfg0.N) (i : S4x50000x256.Idx) :
    i ∈ ((cfg0.win 7).blk t).view.set ↔ ∀ a : Fin 3, win0_7.index t a * S1x1000x256.size a ≤ (i a).val ∧ (i a).val < win0_7.index t a * S1x1000x256.size a + S1x1000x256.size a := by
  show i ∈ ((View.whole main_v10).slice (win0_7.rect t)).set ↔ _
  rw [View.set_slice_whole, Rect.mem_set_unit]
  exact Iff.rfl

/-- Every entry (s, r, o) of the output array is in the block of the point 50 s + r / 1000. -/
theorem cover7 (i : S4x50000x256.Idx) :
    ∃ t : Fin cfg0.N, (cfg0.win 7).flush t = true ∧ i ∈ ((cfg0.win 7).blk t).view.set := by
  have hi0 : (i 0).val < 4 := (i 0).isLt
  have hi1 : (i 1).val < 50000 := (i 1).isLt
  have hi2 : (i 2).val < 256 := (i 2).isLt
  have hN : cfg0.N = 200 := Gen.N_0
  obtain ⟨t, ht⟩ : ∃ t : Fin cfg0.N, t.val = 50 * (i 0).val + (i 1).val / 1000 :=
    ⟨⟨50 * (i 0).val + (i 1).val / 1000, by rw [hN]; omega⟩, rfl⟩
  refine ⟨t, Gen.flush0_7 t, ?_⟩
  rw [mem_blk7]
  obtain ⟨-, -, -, -, -, -, -, ⟨e0, e1, e2⟩⟩ := idx_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1000 ≤ (i 1).val ∧ (i 1).val < win0_7.index t (1 : Fin 3) * 1000 + 1000; omega
  | ⟨2, _⟩ => show win0_7.index t (2 : Fin 3) * 256 ≤ (i 2).val ∧ (i 2).val < win0_7.index t (2 : Fin 3) * 256 + 256; omega

/-! ## The output array after the run -/

/-- THE OUTPUT ARRAY after the run is G of the arrays the region finds. -/
theorem final7_G (c : Dev nD) : (Gen.dats m 0 c).arrAt 7 cfg0.N = G m c :=
  (Gen.dats m 0 c).arrAt_eq_of_cover 7 (G m c) (fun t _ => flushed7_eq m c t) cover7

/-- The same with G written out: entry (s, r, o) is the perceptron row of species s's weights and biases at the
    feature row (s, r), at column o. -/
theorem final7 (c : Dev nD) : (Gen.dats m 0 c).arrAt 7 cfg0.N = fun i : S4x50000x256.Idx =>
    Cert.Mlp.row (fun k h => Gen.V m c main_v4 (ix3 (i 0) k h)) (fun h => Gen.V m c main_v7 (ix3 (i 0) 0 h))
      (fun k h => Gen.V m c main_v5 (ix3 (i 0) k h)) (fun h => Gen.V m c main_v8 (ix3 (i 0) 0 h))
      (fun k h => Gen.V m c main_v6 (ix3 (i 0) k h)) (fun h => Gen.V m c main_v9 (ix3 (i 0) 0 h))
      (fun k => Gen.V m c main_v3 (ix3 (i 0) (i 1) k)) (i 2) :=
  final7_G m c

end Cert.KernelIdeal.ArrayValue

end
-- ==== Proof.HostValue.lean ====
/-
  What the host operations before the kernel region leave in the arrays the region stages, at the ideal floats:
  the three weight arrays converted to bf16 (a conversion is the identity on extended reals), the three bias arrays
  given a unit middle axis, the flattened index array, and the gathered rows viewed as [4, 50000, 512].
-/
import proofs.«430737_j85435489452600_2_alg».proof.Proof.Gen.KernelIdeal.Frame
import proofs.«430737_j85435489452600_2_alg».proof.Proof.Wrap
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostValue

open Idealize.ShloMosaic Idealize.ShloMosaic.TcCoe Idealize.ShloMosaic.ValueIdx Idealize.ShloMosaic.StableHlo Cert.KernelIdeal

variable (m : (ℓ : Loc nD τ sig) → Buf (Elt Ideal) ℓ)

/-! ## The weights: a conversion to bf16 is the identity on extended reals -/

/-- The first layer's weights as staged are the weights as launched. -/
theorem V_main_v4 (c : Dev nD) :
    (Gen.V m c main_v4 : S4x512x512.Idx → EReal) = m ((c : Thread nD τ).loc main_arg3) := by
  dsimp only [Gen.V, Gen.V0]
  simp only [Gen.hostOps0, Gen.hostOps0_1, Gen.hostOps0_2, List.flatten_cons, List.flatten_nil, List.append_nil,
    List.cons_append, List.nil_append]
  after_results
  rfl

/-- The second layer's weights as staged are the weights as launched. -/
theorem V_main_v5 (c : Dev nD) :
    (Gen.V m c main_v5 : S4x512x512.Idx → EReal) = m ((c : Thread nD τ).loc main_arg5) := by
  dsimp only [Gen.V, Gen.V0]
  simp only [Gen.hostOps0, Gen.hostOps0_1, Gen.hostOps0_2, List.flatten_cons, List.flatten_nil, List.append_nil,
    List.cons_append, List.nil_append]
  after_results
  rfl

/-- The third layer's weights as staged are the weights as launched. -/
theorem V_main_v6 (c : Dev nD) :
    (Gen.V m c main_v6 : S4x512x256.Idx → EReal) = m ((c : Thread nD τ).loc main_arg7) := by
  dsimp only [Gen.V, Gen.V0]
  simp only [Gen.hostOps0, Gen.hostOps0_1, Gen.hostOps0_2, List.flatten_cons, List.flatten_nil, List.append_nil,
    List.cons_append, List.nil_append]
  after_results
  rfl

/-! ## The biases: a [4, n] array viewed as [4, 1, n] -/

/-- The first layer's bias as staged: the launched array recast with a unit middle axis. -/
theorem V_main_v7 (c : Dev nD) :
    (Gen.V m c main_v7 : S4x1x512.Idx → EReal)
      = shapeCast S4x1x512 (m ((c : Thread nD τ).loc main_arg4) : S4x512.Idx → EReal) Facts₀.shapeCasts_S4x512_S4x1x512 := by
  dsimp only [Gen.V, Gen.V0]
  simp only [Gen.hostOps0, Gen.hostOps0_1, Gen.hostOps0_2, List.flatten_cons, List.flatten_nil, List.append_nil,
    List.cons_append, List.nil_append]
  after_results
  rfl

/-- The second layer's bias as staged. -/
theorem V_main_v8 (c : Dev nD) :
    (Gen.V m c main_v8 : S4x1x512.Idx → EReal)
      = shapeCast S4x1x512 (m ((c : Thread nD τ).loc main_arg6) : S4x512.Idx → EReal) Facts₀.shapeCasts_S4x512_S4x1x512 := by
  dsimp only [Gen.V, Gen.V0]
  simp only [Gen.hostOps0, Gen.hostOps0_1, Gen.hostOps0_2, List.flatten_cons, List.flatten_nil, List.append_nil,
    List.cons_append, List.nil_append]
  after_results
  rfl

/-- The third layer's bias as staged. -/
theorem V_main_v9 (c : Dev nD) :
    (Gen.V m c main_v9 : S4x1x256.Idx → EReal)
      = shapeCast S4x1x256 (m ((c : Thread nD τ).loc main_arg8) : S4x256.Idx → EReal) Facts₀.shapeCasts_S4x256_S4x1x256 := by
  dsimp only [Gen.V, Gen.V0]
  simp only [Gen.hostOps0, Gen.hostOps0_1, Gen.hostOps0_2, List.flatten_cons, List.flatten_nil, List.append_nil,
    List.cons_append, List.nil_append]
  after_results
  rfl

/-- A [4, n] array recast to [4, 1, n] reads, at (s, 0, h), the operand at (s, h): both have row-major position
    s * n + h. -/
theorem shapeCast_unitMid_apply {α : Type} {n : Nat} (x : (⟨2, ![4, n]⟩ : Shape).Idx → α)
    (hc : (⟨2, ![4, n]⟩ : Shape).ShapeCasts ⟨3, ![4, 1, n]⟩) (s : Fin 4) (u : Fin 1) (h : Fin n) :
    shapeCast ⟨3, ![4, 1, n]⟩ x hc (ix3 s u h) = x (ix2 s h) :=
  shapeCast_apply x hc _ _ (by
    have hu : u.val = 0 := by omega
    rw [Shape.rowMajor_val_three, Shape.rowMajor_val_two]
    show s.val * n + h.val = (s.val * 1 + u.val) * n + h.val
    rw [hu, Nat.mul_one, Nat.add_zero])

theorem V_main_v7_apply (c : Dev nD) (s : Fin 4) (h : Fin 512) :
    Gen.V m c main_v7 (ix3 s 0 h) = m ((c : Thread nD τ).loc main_arg4) (ix2 s h) := by
  rw [V_main_v7]; exact shapeCast_unitMid_apply _ _ s 0 h

theorem V_main_v8_apply (c : Dev nD) (s : Fin 4) (h : Fin 512) :
    Gen.V m c main_v8 (ix3 s 0 h) = m ((c : Thread nD τ).loc main_arg6) (ix2 s h) := by
  rw [V_main_v8]; exact shapeCast_unitMid_apply _ _ s 0 h

theorem V_main_v9_apply (c : Dev nD) (s : Fin 4) (h : Fin 256) :
    Gen.V m c main_v9 (ix3 s 0 h) = m ((c : Thread nD τ).loc main_arg8) (ix2 s h) := by
  rw [V_main_v9]; exact shapeCast_unitMid_apply _ _ s 0 h

/-! ## The flattened indices -/

/-- The index array as the later operations find it: the launched [4, 50000] array flattened. -/
theorem V_main_v0 (c : Dev nD) :
    (Gen.V m c main_v0 : IVec S200000 32)
      = shapeCast S200000 (m ((c : Thread nD τ).loc main_arg2) : IVec S4x50000 32) Facts₀.shapeCasts_S4x50000_S200000 := by
  dsimp only [Gen.V, Gen.V0]
  simp only [Gen.hostOps0, Gen.hostOps0_1, Gen.hostOps0_2, List.flatten_cons, List.flatten_nil, List.append_nil,
    List.cons_append, List.nil_append]
  after_results
  rfl

/-! ## The gathered rows, viewed as [4, 50000, 512] -/

/-- The contents at the region's entry, split at the last stretch of host operations. -/
theorem V0_split (c : Dev nD) :
    Gen.V0 m c = StableHlo.after (Gen.hostOps0_2 (F := Ideal))
      (StableHlo.after (Gen.hostOps0 (F := Ideal) ++ Gen.hostOps0_1 (F := Ideal)) (fun b => m (c, b))) := by
  dsimp only [Gen.V0]
  rw [List.flatten_cons, List.flatten_cons, List.flatten_cons, List.flatten_nil, List.append_nil, ← List.append_assoc,
    StableHlo.after_append]

/-- The last stretch leaves in the staged [4, 50000, 512] array the recast of what it found in the gathered rows (the
    conversion to bf16 after the recast is the identity on extended reals). -/
theorem tail_v3 (W : Valuation τ sig (Elt Ideal)) :
    (StableHlo.after (Gen.hostOps0_2 (F := Ideal)) W (Proc.devRef .tc main_v3) : S4x50000x512.Idx → EReal)
      = shapeCast S4x50000x512 (W (Proc.devRef .tc main_v1) : S200000x512.Idx → EReal)
          Facts₀.shapeCasts_S200000x512_S4x50000x512 := by
  simp only [Gen.hostOps0_2]
  after_results
  rfl

/-- The last stretch does not write the gathered rows. -/
theorem tail_v1 (W : Valuation τ sig (Elt Ideal)) :
    StableHlo.after (Gen.hostOps0_2 (F := Ideal)) W (Proc.devRef .tc main_v1) = W (Proc.devRef .tc main_v1) := by
  simp only [Gen.hostOps0_2]
  after_results

/-- The staged array at (s, g, k) is the gathered rows' array at row 50000 s + g, column k: both have row-major
    position (50000 s + g) * 512 + k. -/
theorem V_main_v2_apply (c : Dev nD) (s : Fin 4) (g : Fin 50000) (k : Fin 512) :
    Gen.V m c main_v3 (ix3 s g k) = Gen.V m c main_v1 (ix2 ⟨50000 * s.val + g.val, by omega⟩ k) := by
  show Gen.V0 m c (Proc.devRef .tc main_v3) (ix3 s g k)
    = Gen.V0 m c (Proc.devRef .tc main_v1) (ix2 ⟨50000 * s.val + g.val, by omega⟩ k)
  rw [V0_split, tail_v3, tail_v1]
  exact shapeCast_apply (s := S200000x512) (t := S4x50000x512) _ _ _ _ (by
    rw [Shape.rowMajor_val_three, Shape.rowMajor_val_two]
    show (50000 * s.val + g.val) * 512 + k.val = (s.val * 50000 + g.val) * 512 + k.val
    omega)

end Cert.KernelIdeal.HostValue

end
-- ==== Proof.TakeValue.lean ====
/-
  The kernel's row gather (a take with fill) read at a row whose wrapped index is in range: there the mask is set
  and the result is the embedding's row at the wrapped index.
-/
import proofs.«430737_j85435489452600_2_alg».proof.Proof.Gen.KernelIdeal.Frame
import proofs.«430737_j85435489452600_2_alg».proof.Proof.Wrap
import proofs.«430737_j85435489452600_2_alg».proof.Proof.LibRowGatherScatter
import Idealize.ShloMosaic.Lib.StableHlo.Run
import Idealize.ShloMosaic.Lib.ValueIdx
import Idealize.ShloMosaic.Lib.Pipeline.Value
import Idealize.ShloMosaic.Lib.ReduceAll
import Idealize.ShloMosaic.Lib.Affine

-- the take's printed term is some thirty operations deep: the closing `rfl` walks all of it
set_option maxRecDepth 16384

noncomputable section

namespace Cert.KernelIdeal.TakeValue

open Idealize.ShloMosaic Idealize.ShloMosaic.TcCoe Idealize.ShloMosaic.ValueIdx Idealize.ShloMosaic.Tactic Cert.KernelIdeal
open Facts₀

variable (m : (ℓ : Loc nD τ sig) → Buf (Elt Ideal) ℓ)

/-- The range mask of a column of indices: row `p` is set when its index lies in [0, 199999]. -/
def inRange (w : IVec S200000x1 32) : IVec S200000 1 :=
  Host.reduce IntOp.andi
    (andi (cmpi .sge w (broadcastInDim S200000x1 ![] bcast_S_S200000x1 (constantI S_ 32 0#32)))
      (cmpi .sle w (broadcastInDim S200000x1 ![0, 1] bcast_S1x1_S200000x1_0_1
        (broadcastInDim S1x1 ![1] bcast_S1_S1x1_1 (constantI S1 32 199999#32)))))
    (constantI S_ 1 1#1) reducesTo_S200000x1_S200000_d1 h_S_

/-- The take with fill over a table `x` and flat indices `v`: the rows of `x` at the wrapped indices, a row whose
    wrapped index is out of range filled with the not-a-number constant. -/
def take (x : Vec Ideal S200000x512 .f32) (v : IVec S200000 32) : Vec Ideal S200000x512 .f32 :=
  select (broadcastInDim S200000x512 ![0] bcast_S200000_S200000x512_0 (inRange (Wrap.widx v)))
    (Host.gather gather_S200000x512_S200000x1_S200000x512_1_0_n_n_0_1_1512 x (Wrap.widx v))
    (broadcastInDim S200000x512 ![] bcast_S_S200000x512 (constant (F := Ideal) S_ .f32 0x7FC00000#32))

/-! ## The take read at a row -/

/-- A reduction by `and` whose initial word is 1 and whose every operand word reducing into `j` is 1 is 1 at `j`. -/
theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_fold]
  have key : ∀ S : Finset s.Idx, (∀ i ∈ S, x i = 1#1) → S.fold IntOp.andi (init (Shape.Idx.first hu)) x = 1#1 := by
    intro S
    induction S using Finset.cons_induction with
    | empty => intro _; rw [Finset.fold_empty]; exact hinit
    | cons a S ha ih =>
      intro hS
      rw [Finset.fold_cons, hS a (Finset.mem_cons_self a S), ih (fun i hi => hS i (Finset.mem_cons_of_mem hi))]
      rfl
  exact key _ (fun i hi => hx i (Finset.mem_filter.1 hi).2)

/-- The range mask is set at a row whose index lies in [0, 200000). -/
theorem inRange_eq_one (w : IVec S200000x1 32) (p : Fin 200000) (hlo : 0 ≤ (w (ix2 p 0)).toInt)
    (hhi : (w (ix2 p 0)).toInt < 200000) : inRange w (ix1 p) = 1#1 := by
  unfold inRange
  refine reduce_andi_of_forall _ _ _ _ _ rfl ?_
  intro i hi
  have h0 : i 0 = p := by
    refine Fin.ext ?_
    have e := Shape.ReducesTo.drop_apply_val_of_eq (reducesTo_S200000x1_S200000_d1) i 0 0
    rw [hi] at e
    exact e.symm
  have hi' : i = ix2 p 0 := by
    funext d
    match d with
    | ⟨0, _⟩ => exact h0
    | ⟨1, _⟩ => exact Fin.ext (by have := idx2_lt1 i; show (i 1).val = 0; omega)
  subst hi'
  show IntOp.andi (IntOp.cmpi .sge (w (ix2 p 0)) 0#32) (IntOp.cmpi .sle (w (ix2 p 0)) 199999#32) = 1#1
  have z : (0#32 : BitVec 32).toInt = 0 := by decide
  have t : (199999#32 : BitVec 32).toInt = 199999 := by decide
  exact IntOp.andi_eq_one.2 ⟨IntOp.cmpi_sge.2 (by rw [z]; exact hlo), IntOp.cmpi_sle.2 (by rw [t]; omega)⟩

/-- The take with fill at a row whose wrapped index is in range: the table's row at that index. -/
theorem take_apply (x : Vec Ideal S200000x512 .f32) (v : IVec S200000 32) (p : Fin 200000) (k : Fin 512)
    (hlo : 0 ≤ (Wrap.widx v (ix2 p 0)).toInt) (hhi : (Wrap.widx v (ix2 p 0)).toInt < 200000) :
    take x v (ix2 p k) = x (ix2 ⟨(Wrap.widx v (ix2 p 0)).toInt.toNat, by omega⟩ k) := by
  unfold take
  rw [select_apply, broadcastInDim_apply _ _ (inRange (Wrap.widx v)) (ix2 p k) (ix1 p)
      (by intro a; obtain rfl : a = 0 := Subsingleton.elim _ _; exact (if_neg (by decide)).symm),
    inRange_eq_one _ p hlo hhi, select_one]
  show Host.gather (Cert.RowOps.rowGather2Dims 200000 200000 512 _) x (Wrap.widx v) (ix2 p k) = _
  rw [Cert.RowOps.rowGather2_apply (by decide)]
  refine congrArg x (congrArg (fun a => ix2 a k) (Fin.ext ?_))
  show min (Wrap.widx v (ix2 p 0)).toInt.toNat (200000 - 1) = (Wrap.widx v (ix2 p 0)).toInt.toNat
  omega

/-! ## The take's result when the region is entered -/

section Run

open StableHlo

/-- The take's operations and the host lines after them, run from any contents `W`: the take's result holds the
    take of `W`'s table at `W`'s flat indices. -/
theorem after_take (W : Valuation τ sig (Elt Ideal)) :
    (StableHlo.after (Gen.hostOps0_1 ++ Gen.hostOps0_2) W (Proc.devRef .tc main_v1) : S200000x512.Idx → EReal)
      = take (W (Proc.devRef .tc main_arg1)) (W (Proc.devRef .tc main_v0)) := by
  simp only [Gen.hostOps0_1, Gen.hostOps0_2, List.cons_append, List.nil_append]
  after_results_simp
  simp only [TRef.ofBuf, TRef.toBuf, cast_eq]
  rfl

/-- Those operations leave the flat indices as they were. -/
theorem after_v0 (W : Valuation τ sig (Elt Ideal)) :
    StableHlo.after (Gen.hostOps0_1 ++ Gen.hostOps0_2) W (Proc.devRef .tc main_v0) = W (Proc.devRef .tc main_v0) := by
  simp only [Gen.hostOps0_1, Gen.hostOps0_2, List.cons_append, List.nil_append]
  after_results_simp

/-- Those operations leave the table as it was. -/
theorem after_arg1 (W : Valuation τ sig (Elt Ideal)) :
    StableHlo.after (Gen.hostOps0_1 ++ Gen.hostOps0_2) W (Proc.devRef .tc main_arg1) = W (Proc.devRef .tc main_arg1) := by
  simp only [Gen.hostOps0_1, Gen.hostOps0_2, List.cons_append, List.nil_append]
  after_results_simp

end Run

/-- The host lines before the region: the reshape of the indices, then the take's operations and the lines after. -/
theorem ops_eq : (List.flatten [Gen.hostOps0, Gen.hostOps0_1, Gen.hostOps0_2] : List (HloOp τ sig (Elt Ideal)))
    = StableHlo.reshape main_arg2 main_v0 rfl shapeCasts_S4x50000_S200000 :: (Gen.hostOps0_1 ++ Gen.hostOps0_2) := by
  simp only [List.flatten_cons, List.flatten_nil, List.append_nil]
  rfl

/-- What the region finds in the take's result: the take of the table at the flat indices, both as the region finds
    them. -/
theorem take_eq (c : Dev nD) :
    (Gen.V m c main_v1 : S200000x512.Idx → EReal)
      = take (Gen.V m c main_arg1 : Vec Ideal S200000x512 .f32) (Gen.V m c main_v0 : IVec S200000 32) := by
  dsimp only [Gen.V, Gen.V0]
  rw [ops_eq]
  simp only [StableHlo.after_cons]
  rw [after_take, after_v0, after_arg1]

/-- THE TAKE AT AN IN-RANGE ROW: where row `p`'s wrapped index lies in [0, 200000), the take's result, as the
    region finds it, holds at (p, k) the launched table's entry at (that index, k). -/
theorem V_main_v1_apply (c : Dev nD) (p : Fin 200000) (k : Fin 512)
    (hlo : 0 ≤ (Wrap.widx (Gen.V m c main_v0 : IVec S200000 32) (ix2 p 0)).toInt)
    (hhi : (Wrap.widx (Gen.V m c main_v0 : IVec S200000 32) (ix2 p 0)).toInt < 200000) :
    (Gen.V m c main_v1 : S200000x512.Idx → EReal) (ix2 p k)
      = (m ((c : Thread nD τ).loc main_arg1) : S200000x512.Idx → EReal)
          (ix2 ⟨(Wrap.widx (Gen.V m c main_v0 : IVec S200000 32) (ix2 p 0)).toInt.toNat, by omega⟩ k) := by
  rw [take_eq m c, take_apply _ _ p k hlo hhi, Gen.V_main_arg1]

end Cert.KernelIdeal.TakeValue

end
-- ==== Proof.RefValue.lean ====
/-
  The reference's value before its scatter, at the extended reals.

  The reference gathers one feature row per atom, runs three batched contractions with a bias each (the first two
  followed by x * (1 / (1 + e^(-x)))), and scatters the result. Read at an entry (s, g, o), the chain of operations
  between the gather and the scatter is the three-layer perceptron of the specification applied to the gathered row
  (s, g, ·) with species s's weights: each contraction is the sum over the contracted axis, each bias is read at
  (s, ·), and the host's spelling of the logistic function is the logistic function.
-/
import proofs.«430737_j85435489452600_2_alg».proof.Proof.Gen.ReferenceIdeal.Read
import proofs.«430737_j85435489452600_2_alg».proof.Proof.Spec
import proofs.«430737_j85435489452600_2_alg».proof.Proof.LibRowGatherScatter
import Idealize.ShloMosaic.PureOps.Ideal
import Idealize.ShloMosaic.PureOps.IdealRules
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-! ## The index functions of the generated reads, at an index given by coordinates -/

theorem lidx7 (s : Fin 4) (g : Fin 50000) (h k : Fin 512) : lidx_main_v7 (ix3 s g h) k = ix3 s g k := by
  funext a; match a with | ⟨0, _⟩ => rfl | ⟨1, _⟩ => rfl | ⟨2, _⟩ => rfl
theorem ridx7 (s : Fin 4) (g : Fin 50000) (h k : Fin 512) : ridx_main_v7 (ix3 s g h) k = ix3 s k h := by
  funext a; match a with | ⟨0, _⟩ => rfl | ⟨1, _⟩ => rfl | ⟨2, _⟩ => rfl
theorem bidx9 (s : Fin 4) (g : Fin 50000) (h : Fin 512) : idx_main_v8 (idx_main_v9 (ix3 s g h)) = ix2 s h := by
  funext a; match a with | ⟨0, _⟩ => rfl | ⟨1, _⟩ => rfl
theorem lidx12 (s : Fin 4) (g : Fin 50000) (h k : Fin 512) : lidx_main_v12 (ix3 s g h) k = ix3 s g k := by
  funext a; match a with | ⟨0, _⟩ => rfl | ⟨1, _⟩ => rfl | ⟨2, _⟩ => rfl
theorem ridx12 (s : Fin 4) (g : Fin 50000) (h k : Fin 512) : ridx_main_v12 (ix3 s g h) k = ix3 s k h := by
  funext a; match a with | ⟨0, _⟩ => rfl | ⟨1, _⟩ => rfl | ⟨2, _⟩ => rfl
theorem bidx14 (s : Fin 4) (g : Fin 50000) (h : Fin 512) : idx_main_v13 (idx_main_v14 (ix3 s g h)) = ix2 s h := by
  funext a; match a with | ⟨0, _⟩ => rfl | ⟨1, _⟩ => rfl
theorem lidx17 (s : Fin 4) (g : Fin 50000) (o : Fin 256) (k : Fin 512) : lidx_main_v17 (ix3 s g o) k = ix3 s g k := by
  funext a; match a with | ⟨0, _⟩ => rfl | ⟨1, _⟩ => rfl | ⟨2, _⟩ => rfl
theorem ridx17 (s : Fin 4) (g : Fin 50000) (o : Fin 256) (k : Fin 512) : ridx_main_v17 (ix3 s g o) k = ix3 s k o := by
  funext a; match a with | ⟨0, _⟩ => rfl | ⟨1, _⟩ => rfl | ⟨2, _⟩ => rfl
theorem bidx19 (s : Fin 4) (g : Fin 50000) (o : Fin 256) : idx_main_v18 (idx_main_v19 (ix3 s g o)) = ix2 s o := by
  funext a; match a with | ⟨0, _⟩ => rfl | ⟨1, _⟩ => rfl

/-- The word of the constant 1.0 is the real number one. -/
theorem one_word : FloatOps.ofBits (F := Ideal) .f32 0x3F800000#32 = (1 : EReal) :=
  IdealRules.sign_bit.ideal_onePat .f32

/-- The host's spelling x * (1 / (1 + e^(-x))) is the specification's silu. -/
theorem silu_spelled (z : EReal) :
    FloatOps.mulf (F := Ideal) (φ := .f32) z (FloatOps.hostDivf (FloatOps.ofBits .f32 0x3F800000#32)
      (FloatOps.addf (FloatOps.ofBits .f32 0x3F800000#32) (FloatOps.hostUnary .exp (FloatOps.hostNegf z)))) = Cert.Mlp.silu z := by
  rw [one_word]; rfl

/-! ## One layer at a time -/

/-- The first hidden layer at (s, g, h): silu of the affine image of the gathered row. -/
theorem layer1 (x1 : (⟨S200000x512, .f32⟩ : BufTy).Contents (Elt Ideal)) (x2 : (⟨S4x50000, .i32⟩ : BufTy).Contents (Elt Ideal)) (x3 : (⟨S4x512x512, .f32⟩ : BufTy).Contents (Elt Ideal)) (x4 : (⟨S4x512, .f32⟩ : BufTy).Contents (Elt Ideal)) (s : Fin 4) (g : Fin 50000) (h : Fin 512) :
    val_main_v11 (F := Ideal) x1 x2 x3 x4 (ix3 s g h)
      = Cert.Mlp.silu (Cert.Mlp.affine (fun k h => x3 (ix3 s k h)) (fun h => x4 (ix2 s h))
          (fun k => val_main_v6 (F := Ideal) x1 x2 (ix3 s g k)) h) := by
  rw [val_main_v11_apply, val_main_call0_v5_apply, val_main_call0_v4_apply, val_main_call0_cst_0_apply,
    val_main_call0_v3_apply, val_main_call0_v2_apply, val_main_call0_cst_apply, val_main_call0_v1_apply,
    val_main_call0_v0_apply, val_main_v10_apply, val_main_v7_apply, val_main_v9_apply, val_main_v8_apply, bidx9,
    silu_spelled]
  simp only [lidx7, ridx7]
  rfl

/-- The second hidden layer at (s, g, h): silu of the affine image of the first layer's row. -/
theorem layer2 (x1 : (⟨S200000x512, .f32⟩ : BufTy).Contents (Elt Ideal)) (x2 : (⟨S4x50000, .i32⟩ : BufTy).Contents (Elt Ideal)) (x3 : (⟨S4x512x512, .f32⟩ : BufTy).Contents (Elt Ideal)) (x4 : (⟨S4x512, .f32⟩ : BufTy).Contents (Elt Ideal)) (x5 : (⟨S4x512x512, .f32⟩ : BufTy).Contents (Elt Ideal)) (x6 : (⟨S4x512, .f32⟩ : BufTy).Contents (Elt Ideal)) (s : Fin 4) (g : Fin 50000) (h : Fin 512) :
    val_main_v16 (F := Ideal) x1 x2 x3 x4 x5 x6 (ix3 s g h)
      = Cert.Mlp.silu (Cert.Mlp.affine (fun k h => x5 (ix3 s k h)) (fun h => x6 (ix2 s h))
          (fun k => val_main_v11 (F := Ideal) x1 x2 x3 x4 (ix3 s g k)) h) := by
  rw [val_main_v16_apply, val_main_call1_v5_apply, val_main_call1_v4_apply, val_main_call1_cst_0_apply,
    val_main_call1_v3_apply, val_main_call1_v2_apply, val_main_call1_cst_apply, val_main_call1_v1_apply,
    val_main_call1_v0_apply, val_main_v15_apply, val_main_v12_apply, val_main_v14_apply, val_main_v13_apply, bidx14,
    silu_spelled]
  simp only [lidx12, ridx12]
  rfl

/-- The output layer at (s, g, o): the affine image of the second layer's row. -/
theorem layer3 (x1 : (⟨S200000x512, .f32⟩ : BufTy).Contents (Elt Ideal)) (x2 : (⟨S4x50000, .i32⟩ : BufTy).Contents (Elt Ideal)) (x3 : (⟨S4x512x512, .f32⟩ : BufTy).Contents (Elt Ideal)) (x4 : (⟨S4x512, .f32⟩ : BufTy).Contents (Elt Ideal)) (x5 : (⟨S4x512x512, .f32⟩ : BufTy).Contents (Elt Ideal)) (x6 : (⟨S4x512, .f32⟩ : BufTy).Contents (Elt Ideal)) (x7 : (⟨S4x512x256, .f32⟩ : BufTy).Contents (Elt Ideal)) (x8 : (⟨S4x256, .f32⟩ : BufTy).Contents (Elt Ideal)) (s : Fin 4) (g : Fin 50000) (o : Fin 256) :
    val_main_v20 (F := Ideal) x1 x2 x3 x4 x5 x6 x7 x8 (ix3 s g o)
      = Cert.Mlp.affine (fun k h => x7 (ix3 s k h)) (fun h => x8 (ix2 s h))
          (fun k => val_main_v16 (F := Ideal) x1 x2 x3 x4 x5 x6 (ix3 s g k)) o := by
  rw [val_main_v20_apply, val_main_v17_apply, val_main_v19_apply, val_main_v18_apply, bidx19]
  simp only [lidx17, ridx17]
  rfl

/-- THE REFERENCE BEFORE ITS SCATTER is the grouped perceptron of the gathered rows. -/
theorem val_main_v20_eq_grouped (x1 : (⟨S200000x512, .f32⟩ : BufTy).Contents (Elt Ideal)) (x2 : (⟨S4x50000, .i32⟩ : BufTy).Contents (Elt Ideal)) (x3 : (⟨S4x512x512, .f32⟩ : BufTy).Contents (Elt Ideal)) (x4 : (⟨S4x512, .f32⟩ : BufTy).Contents (Elt Ideal)) (x5 : (⟨S4x512x512, .f32⟩ : BufTy).Contents (Elt Ideal)) (x6 : (⟨S4x512, .f32⟩ : BufTy).Contents (Elt Ideal)) (x7 : (⟨S4x512x256, .f32⟩ : BufTy).Contents (Elt Ideal)) (x8 : (⟨S4x256, .f32⟩ : BufTy).Contents (Elt Ideal)) :
    val_main_v20 (F := Ideal) x1 x2 x3 x4 x5 x6 x7 x8
      = Cert.Mlp.grouped (val_main_v6 (F := Ideal) x1 x2) x3 x4 x5 x6 x7 x8 := by
  funext i
  obtain ⟨s, g, o, rfl⟩ : ∃ s g o, i = ix3 s g o := ⟨_, _, _, eq_ix3 i⟩
  rw [layer3]
  simp only [layer2, layer1]
  rfl

/-! ## The wrapped index of an atom, in the two shapes the reference makes it -/

theorem widx5 (s : Fin 4) (g : Fin 50000) : idx_main_v5 (ix3 s g (0 : Fin 1)) = ix2 s g := by
  funext a; match a with | ⟨0, _⟩ => rfl | ⟨1, _⟩ => rfl

/-- The reshape to [200000] reads flat position 50000 s + g at (s, g). -/
theorem widx22 (s : Fin 4) (g : Fin 50000) (h : 50000 * s.val + g.val < 200000) :
    idx_main_v22 (idx_main_v29 (ix2 ⟨50000 * s.val + g.val, h⟩ (0 : Fin 1))) = ix2 s g := by
  have hg := g.isLt
  funext a
  match a with
  | ⟨0, _⟩ => exact Fin.ext (by show (50000 * s.val + g.val) / 50000 = s.val; omega)
  | ⟨1, _⟩ => exact Fin.ext (by show (50000 * s.val + g.val) % 50000 = g.val; omega)

/-- The wrapped index of atom (s, g) is the same word whether the wrap is done in shape [4, 50000] or on the
    flattened array: both are the select "negative: add 200000" on the one entry (s, g) of the indices. -/
theorem val_main_v5_row (x2 : (⟨S4x50000, .i32⟩ : BufTy).Contents (Elt Ideal)) (s : Fin 4) (g : Fin 50000) :
    val_main_v5 (F := Ideal) x2 (ix3 s g 0)
      = val_main_v29 (F := Ideal) x2 (ix2 ⟨50000 * s.val + g.val, by omega⟩ 0) := by
  rw [val_main_v5_apply, widx5, val_main_v29_apply, val_main_v28_apply, val_main_v25_apply, val_main_v27_apply,
    val_main_v22_apply, widx22, val_main_v4_apply, val_main_v1_apply, val_main_v3_apply, val_main_v0_apply,
    val_main_v2_apply, val_main_c_apply, val_main_c_0_apply, val_main_v24_apply, val_main_v26_apply,
    val_main_c_1_apply, val_main_c_2_apply]

/-! ## The gathered rows -/

/-- The gather at (s, g, k): the embedding's row at the wrapped index of atom (s, g), read signed and clamped into
    the table, at feature k. -/
theorem val_main_v6_apply (x1 : (⟨S200000x512, .f32⟩ : BufTy).Contents (Elt Ideal)) (x2 : (⟨S4x50000, .i32⟩ : BufTy).Contents (Elt Ideal)) (s : Fin 4) (g : Fin 50000) (k : Fin 512) :
    val_main_v6 (F := Ideal) x1 x2 (ix3 s g k)
      = x1 (ix2 ⟨min (val_main_v5 (F := Ideal) x2 (ix3 s g 0)).toInt.toNat 199999, by omega⟩ k) := by
  show Host.gather (Cert.RowOps.rowGather3Dims 200000 4 50000 512 _) x1 (val_main_v5 (F := Ideal) x2) (ix3 s g k) = _
  exact Cert.RowOps.rowGather3_apply (by decide) _ x1 (val_main_v5 (F := Ideal) x2) (ix3 s g k)

end Cert.ReferenceIdeal.RefValue

end
-- ==== Proof.Bridge.lean ====
/-
  Why the two programs end with the same table.

  Both end in the same scatter: a zero table [200000, 256], the same index column (the flat atom indices, a negative one
  moved up by 200000), and an update array that is the [4, 50000, 256] perceptron output laid flat. A scatter is a fold over
  the update elements that skips every element whose row index is not a row of the table, so it is enough that the two
  update arrays agree on the rows it keeps. On such a row the index lies in [0, 200000): the kernel's gather then takes the
  embedding row itself (its fill applies only outside that range), the reference's clamped gather takes the same row (the
  clamp is the identity there), and the perceptron output of atom (s, g) depends on the gathered features only through that
  one row. The weights and biases reach both perceptrons unchanged (a change of float format is the identity on the
  extended reals, and a bias [4, n] viewed as [4, 1, n] has the same entries).
-/
import proofs.«430737_j85435489452600_2_alg».proof.Defs
import proofs.«430737_j85435489452600_2_alg».proof.Proof.Gen.KernelIdeal.Frame
import proofs.«430737_j85435489452600_2_alg».proof.Proof.Gen.ReferenceIdeal.Run
import proofs.«430737_j85435489452600_2_alg».proof.Proof.Gen.ReferenceIdeal.Read
import proofs.«430737_j85435489452600_2_alg».proof.Proof.Spec
import proofs.«430737_j85435489452600_2_alg».proof.Proof.Wrap
import proofs.«430737_j85435489452600_2_alg».proof.Proof.LibRowGatherScatter
import proofs.«430737_j85435489452600_2_alg».proof.Proof.ArrayValue
import proofs.«430737_j85435489452600_2_alg».proof.Proof.HostValue
import proofs.«430737_j85435489452600_2_alg».proof.Proof.TakeValue
import proofs.«430737_j85435489452600_2_alg».proof.Proof.RefValue
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.Proof.Bridge

open Cert.KernelIdeal in
/-- A reshape [4, 50000, 256] → [200000, 256] reads flat row `p` at species `p / 50000`, atom `p % 50000`. -/
theorem reshape_out_apply {α : Type} (y : (⟨3, ![4, 50000, 256]⟩ : Shape).Idx → α)
    (h : (⟨3, ![4, 50000, 256]⟩ : Shape).ShapeCasts ⟨2, ![200000, 256]⟩) (j : (⟨2, ![200000, 256]⟩ : Shape).Idx) :
    shapeCast (⟨2, ![200000, 256]⟩ : Shape) y h j
      = y (ix3 (⟨(j 0).val / 50000, by have h0 : (j 0).val < 200000 := (j 0).isLt; omega⟩ : Fin 4) (⟨(j 0).val % 50000, Nat.mod_lt _ (by decide)⟩ : Fin 50000) (j 1)) := by
  refine shapeCast_apply y h j _ ?_
  rewrite [Shape.rowMajor_val_three, Shape.rowMajor_val_two]
  have h0 : (j 0).val < 200000 := (j 0).isLt
  show ((j 0).val / 50000 * 50000 + (j 0).val % 50000) * 256 + (j 1).val = (j 0).val * 256 + (j 1).val
  omega

section
open Cert.KernelIdeal Cert.KernelIdeal.Gen
variable (m : (ℓ : Loc nD τ sig) → Buf (Elt Ideal) ℓ)

/-- The index column of the kernel's scatter is the reference's. -/
theorem widx_eq (c : Dev nD) :
    Wrap.widx (Gen.V m c main_v0) = Cert.ReferenceIdeal.Read.val_main_v29 (F := Ideal) (m ((c : Thread nD τ).loc main_arg2)) := by
  rw [Cert.KernelIdeal.HostValue.V_main_v0]; rfl

/-- On an update row the scatter keeps, the kernel's perceptron output and the reference's agree. -/
theorem kept_eq (c : Dev nD) (j : S200000x256.Idx) (i : S200000x256.Idx)
    (hji : scatter_S200000x256_S200000x1_S200000x256_1_0_0_1.resultIdx? j
      (Cert.ReferenceIdeal.Read.val_main_v29 (F := Ideal) (m ((c : Thread nD τ).loc main_arg2))) = some i) :
    shapeCast S200000x256 ((Gen.dats m 0 c).arrAt 7 cfg0.N) Facts₀.shapeCasts_S4x50000x256_S200000x256 j
      = Cert.ReferenceIdeal.Read.val_main_v23 (F := Ideal) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) j := by
  -- both sides are reshapes of a [4, 50000, 256] array: read them at species s, atom g
  unfold Cert.ReferenceIdeal.Read.val_main_v23
  refine (reshape_out_apply _ _ j).trans (Eq.trans ?_ (reshape_out_apply _ _ j).symm)
  have h0 : (j 0).val < 200000 := (j 0).isLt
  generalize hs : (⟨(j 0).val / 50000, by omega⟩ : Fin 4) = s
  generalize hg : (⟨(j 0).val % 50000, Nat.mod_lt _ (by decide)⟩ : Fin 50000) = g
  have hp : (⟨50000 * s.val + g.val, by omega⟩ : Fin 200000) = j 0 := by
    subst hs hg; exact Fin.ext (by show 50000 * ((j 0).val / 50000) + (j 0).val % 50000 = (j 0).val; omega)
  -- the scatter keeps row j 0 only if its wrapped index is a row of the table
  obtain ⟨hlo, hhi⟩ := Cert.RowOps.rowScatter_kept (N := 200000) (M := 200000) (C := 256) _ _ j i hji
  rw [Cert.KernelIdeal.ArrayValue.final7, Cert.ReferenceIdeal.RefValue.val_main_v20_eq_grouped]
  unfold Cert.Mlp.grouped
  show Cert.Mlp.row (fun k h => Gen.V m c main_v4 (ix3 s k h)) (fun h => Gen.V m c main_v7 (ix3 s 0 h))
      (fun k h => Gen.V m c main_v5 (ix3 s k h)) (fun h => Gen.V m c main_v8 (ix3 s 0 h))
      (fun k h => Gen.V m c main_v6 (ix3 s k h)) (fun h => Gen.V m c main_v9 (ix3 s 0 h))
      (fun k => Gen.V m c main_v3 (ix3 s g k)) (j 1) = _
  rw [Cert.KernelIdeal.HostValue.V_main_v4, Cert.KernelIdeal.HostValue.V_main_v5, Cert.KernelIdeal.HostValue.V_main_v6,
    funext (Cert.KernelIdeal.HostValue.V_main_v7_apply m c s), funext (Cert.KernelIdeal.HostValue.V_main_v8_apply m c s),
    funext (Cert.KernelIdeal.HostValue.V_main_v9_apply m c s)]
  have hX : (fun k : Fin 512 => Gen.V m c main_v3 (ix3 s g k))
      = fun k => Cert.ReferenceIdeal.Read.val_main_v6 (F := Ideal) (m ((c : Thread nD τ).loc main_arg1)) (m ((c : Thread nD τ).loc main_arg2)) (ix3 s g k) := by
    funext k
    have hw : Wrap.widx (Gen.V m c main_v0) (ix2 (⟨50000 * s.val + g.val, by omega⟩ : Fin 200000) (0 : Fin 1))
        = Cert.ReferenceIdeal.Read.val_main_v29 (F := Ideal) (m ((c : Thread nD τ).loc main_arg2)) (ix2 (j 0) (0 : Fin 1)) := by
      rw [widx_eq, hp]
    rw [Cert.KernelIdeal.HostValue.V_main_v2_apply,
      Cert.KernelIdeal.TakeValue.V_main_v1_apply m c _ k (by rw [hw]; exact hlo) (by rw [hw]; exact hhi),
      Cert.ReferenceIdeal.RefValue.val_main_v6_apply]
    refine congrArg (fun a : Fin 200000 => m ((c : Thread nD τ).loc main_arg1) (ix2 a k)) (Fin.ext ?_)
    dsimp only
    rw [hw, Cert.ReferenceIdeal.RefValue.val_main_v5_row, hp]
    omega
  rw [hX]

/-- The kernel's scattered result is the reference's: the same index column, the same zero table, and update rows
    that agree wherever the scatter keeps them. -/
theorem result_eq (c : Dev nD) :
    Host.scatter scatter_S200000x256_S200000x1_S200000x256_1_0_0_1 (fun _ b => b)
        (broadcastInDim S200000x256 ![] Facts₀.bcast_S_S200000x256 (constant (F := Ideal) S_ .f32 0x00000000#32))
        (Wrap.widx (Gen.V m c main_v0))
        (shapeCast S200000x256 ((Gen.dats m 0 c).arrAt 7 cfg0.N) Facts₀.shapeCasts_S4x50000x256_S200000x256)
      = Cert.ReferenceIdeal.Read.val_main_v30 (F := Ideal) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [widx_eq]
  unfold Cert.ReferenceIdeal.Read.val_main_v30
  exact Cert.RowOps.scatter_congr_kept _ _ _ _ _ _ (fun j i hji => kept_eq m c j i hji)

end

end Cert.Proof.Bridge

end
-- ==== Proof.lean ====
/-
  Gather atoms by index, run a per-species three-layer perceptron (silu, silu, linear) on each group of 50000 atoms, scatter
  the outputs back: the kernel against its array-language reference, over the extended reals.

  The kernel gathers with a fill (a row whose index, after a negative one is moved up by 200000, is not a row of the embedding
  table is filled with a not-a-number), runs the perceptron block by block (1000 atoms of one species at a time: three
  matrix products into zero accumulators, a bias row added to every row, x · logistic x twice), and scatters the output
  rows into a zero table, dropping the rows whose index is out of range. The reference gathers with a clamp instead of a
  fill, computes the perceptron with three batched contractions and x · (1 / (1 + e^(-x))), and scatters the same way. The
  two gathers differ exactly on the rows the scatter drops, each output row depends on its own gathered row only, and
  logistic x is 1 / (1 + e^(-x)) by definition; no finiteness of the inputs is used.

  The modules: Spec (the perceptron on one row, and on the grouped arrays), LibRowGatherScatter (a scatter only looks at
  the update rows it keeps; a row gather read at an index), Wrap (the index column), BlockValue (what the kernel body leaves
  in an output block), ArrayValue (the kernel's whole output array from its blocks), HostValue and TakeValue (what the host
  operations before the kernel leave in the arrays it reads), RunValue (the kernel program's run with its result named),
  RefValue (the reference's perceptron output as the specification), Bridge (the two scattered tables are equal). The three
  frames are the generated frame runs; the idealization rewrote nothing, so there is nothing to preserve.
-/
import proofs.«430737_j85435489452600_2_alg».proof.Defs
import proofs.«430737_j85435489452600_2_alg».proof.Proof.Gen.Kernel
import proofs.«430737_j85435489452600_2_alg».proof.Proof.Gen.Kernel.Skeleton
import proofs.«430737_j85435489452600_2_alg».proof.Proof.Gen.Kernel.Launch
import proofs.«430737_j85435489452600_2_alg».proof.Proof.Gen.Kernel.Points
import proofs.«430737_j85435489452600_2_alg».proof.Proof.Gen.Kernel.Frame
import proofs.«430737_j85435489452600_2_alg».proof.Proof.Gen.KernelIdeal
import proofs.«430737_j85435489452600_2_alg».proof.Proof.Gen.KernelIdeal.Skeleton
import proofs.«430737_j85435489452600_2_alg».proof.Proof.Gen.KernelIdeal.Launch
import proofs.«430737_j85435489452600_2_alg».proof.Proof.Gen.KernelIdeal.Points
import proofs.«430737_j85435489452600_2_alg».proof.Proof.Gen.KernelIdeal.Frame
import proofs.«430737_j85435489452600_2_alg».proof.Proof.Gen.ReferenceIdeal
import proofs.«430737_j85435489452600_2_alg».proof.Proof.Gen.Pre_finite_inputs
import proofs.«430737_j85435489452600_2_alg».proof.Proof.Gen.ReferenceIdeal.Run
import proofs.«430737_j85435489452600_2_alg».proof.Proof.Gen.ReferenceIdeal.Read
import proofs.«430737_j85435489452600_2_alg».proof.Proof.RunValue
import proofs.«430737_j85435489452600_2_alg».proof.Proof.Bridge
import Idealize.ShloMosaic.Adequacy
import Idealize.ShloMosaic.Init

noncomputable section

namespace Cert.Proof

open Idealize.ShloMosaic Idealize.SL.Sem

/-- The word-level kernel program runs and leaves its arguments alone: its generated frame run. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments, the kernel program ends with the scatter of its perceptron output and
    the reference with the scatter of its own; the two tables are equal. -/
theorem algebraic : Cert.algebraic_KernelIdeal_ReferenceIdeal := by
  intro m ρ m' ρ' _ hagree
  refine ⟨_, Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.Proof.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
